-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8192 : Shape := ⟨2, ![8192, 8192]⟩
abbrev S_ : Shape := ⟨0, ![]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel

variable [Facts]

def fn_part1 {F : FTy → Type} [FloatOps F] (main_arg1 : FVec F S8192x8192 .f32) (main_v16 : IVec S_ 1) (main_v17 : IVec S8192x8192 32) : IVec S_ 1 :=
  let main_v18 : IVec S8192x8192 32 := iotaInDim S8192x8192 32 1
  let main_v19 : IVec S8192x8192 1 := cmpi .sle main_v18 main_v17
  let main_cst_4 : FVec F S_ .f32 := constant S_ .f32 0x00000000#32
  let main_v20 : FVec F S8192x8192 .f32 := broadcastInDim S8192x8192 ![] bcast_S_S8192x8192 main_cst_4
  let main_v21 : IVec S8192x8192 1 := cmpf .oeq main_arg1 main_v20
  let main_v22 : IVec S8192x8192 1 := ori main_v19 main_v21
  let main_c_5 : IVec S_ 1 := constantI S_ 1 1#1
  let main_v23 : IVec S_ 1 := (fun x v => Host.reduce IntOp.andi x v reducesTo_S8192x8192_S_d0_1 h_S_) main_v22 main_c_5
  let main_v24 : IVec S_ 1 := andi main_v16 main_v23
  main_v24

def fn {F : FTy → Type} [FloatOps F] (main_arg0 : FVec F S8192x8192 .f32) (main_arg1 : FVec F S8192x8192 .f32) : IVec S_ 1 :=
  let main_v0 : FVec F S8192x8192 .f32 := Host.absf main_arg0
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : IVec S8192x8192 32 := iotaInDim S8192x8192 32 0
  let main_v10 : IVec S8192x8192 32 := iotaInDim S8192x8192 32 1
  let main_v11 : IVec S8192x8192 1 := cmpi .sle main_v10 main_v9
  let main_cst_2 : FVec F S_ .f32 := constant S_ .f32 0x00000000#32
  let main_v12 : FVec F S8192x8192 .f32 := broadcastInDim S8192x8192 ![] bcast_S_S8192x8192 main_cst_2
  let main_v13 : IVec S8192x8192 1 := cmpf .oeq main_arg0 main_v12
  let main_v14 : IVec S8192x8192 1 := ori main_v11 main_v13
  let main_c_3 : IVec S_ 1 := constantI S_ 1 1#1
  let main_v15 : IVec S_ 1 := (fun x v => Host.reduce IntOp.andi x v reducesTo_S8192x8192_S_d0_1 h_S_) main_v14 main_c_3
  let main_v16 : IVec S_ 1 := andi main_v8 main_v15
  let main_v17 : IVec S8192x8192 32 := iotaInDim S8192x8192 32 0
  fn_part1 (F := F) main_arg1 main_v16 main_v17
-- ==== Kernel.lean ====
abbrev S8192x8192 : Shape := ⟨2, ![8192, 8192]⟩
abbrev S120 : Shape := ⟨1, ![120]⟩
abbrev S1024x1024 : Shape := ⟨2, ![1024, 1024]⟩
abbrev S1 : Shape := ⟨1, ![1]⟩
abbrev S_ : Shape := ⟨0, ![]⟩

abbrev nBuf : Space → Nat
  | .hbm => 12
  | .vmem => 7
  | .smem => 3
  | _ => 0

abbrev bufTy : (tb : Table) → Fin (tcTables nBuf tb) → BufTy
  | .hbm, ⟨0, _⟩ => ⟨S8192x8192, .f32⟩
  | .hbm, ⟨1, _⟩ => ⟨S8192x8192, .f32⟩
  | .hbm, ⟨2, _⟩ => ⟨S8192x8192, .f32⟩
  | .hbm, ⟨3, _⟩ => ⟨S8192x8192, .i32⟩
  | .hbm, ⟨4, _⟩ => ⟨S_, .i32⟩
  | .hbm, ⟨5, _⟩ => ⟨S8192x8192, .i32⟩
  | .hbm, ⟨6, _⟩ => ⟨S8192x8192, .i32⟩
  | .hbm, ⟨7, _⟩ => ⟨S8192x8192, .i32⟩
  | .hbm, ⟨8, _⟩ => ⟨S8192x8192, .i1⟩
  | .hbm, ⟨9, _⟩ => ⟨S_, .f32⟩
  | .hbm, ⟨10, _⟩ => ⟨S8192x8192, .f32⟩
  | .hbm, ⟨11, _⟩ => ⟨S8192x8192, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .smem, ⟨0, _⟩ => ⟨S120, .i32⟩
  | .local _ .smem, ⟨1, _⟩ => ⟨S120, .i32⟩
  | .local _ .smem, ⟨2, _⟩ => ⟨S120, .i32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_c : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_cst : Ref sig .tc := ⟨.hbm, 9, rfl⟩
abbrev main_call0_v5 : Ref sig .tc := ⟨.hbm, 10, rfl⟩
abbrev main_v1 : Ref sig .tc := ⟨.hbm, 11, rfl⟩
abbrev main_c : Ref sig .tc := ⟨.smem, 0, rfl⟩
abbrev main_c_0 : Ref sig .tc := ⟨.smem, 1, rfl⟩
abbrev main_c_1 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![120], ![false]⟩

abbrev pre0 : Pipeline.Prefetch sig := ⟨3, ![main_c.idx, main_c_0.idx, main_c_1.idx], fun | 0 => main_c.names | 1 => main_c_0.names | 2 => main_c_1.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond2 (v1 : BitVec 32) (v5 : BitVec 32) : BitVec 1 :=
  let v19 : BitVec 1 := Scalar.cmpi .eq v5 v1
  let v20 : BitVec 32 := Scalar.extui v19
  let c0_i32_7 : BitVec 32 := 0#32
  let v21 : BitVec 1 := Scalar.cmpi .ne v20 c0_i32_7
  v21

def cc0_transform_0 (k0_off1_inb : ∀ i : grid0.Coords, ∀ a, (k0_off1 i) a + S1.size a ≤ S120.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S120) ![v0.toNat] S1.size (k0_off1_inb i)) numel1_S1
  let v2 : Index := Scalar.indexCast arg0
  let v3 : BitVec 32 := pf.at 2 (Rect.unit (s := S120) ![v2.toNat] S1.size (k0_off1_inb i)) numel1_S1
  let c0_i32 : BitVec 32 := 0#32
  ![v1.toNat, v3.toNat]

def cc0_transform_1 (k0_off1_inb : ∀ i : grid0.Coords, ∀ a, (k0_off1 i) a + S1.size a ≤ S120.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 2 (Rect.unit (s := S120) ![v0.toNat] S1.size (k0_off1_inb i)) numel1_S1
  let v2 : Index := Scalar.indexCast arg0
  let v3 : BitVec 32 := pf.at 1 (Rect.unit (s := S120) ![v2.toNat] S1.size (k0_off1_inb i)) numel1_S1
  let c0_i32 : BitVec 32 := 0#32
  ![v1.toNat, v3.toNat]

def cc0_transform_2 (k0_off1_inb : ∀ i : grid0.Coords, ∀ a, (k0_off1 i) a + S1.size a ≤ S120.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S120) ![v0.toNat] S1.size (k0_off1_inb i)) numel1_S1
  let v2 : Index := Scalar.indexCast arg0
  let v3 : BitVec 32 := pf.at 1 (Rect.unit (s := S120) ![v2.toNat] S1.size (k0_off1_inb i)) numel1_S1
  let c0_i32 : BitVec 32 := 0#32
  ![v1.toNat, v3.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  numel1_S1 : S1.numel = 1
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  bcast_S_S8192x8192 : S_.BroadcastsInDim S8192x8192 (![] : Fin 0 → Fin S8192x8192.rank)
  dot_S1024x1024_S1024x1024_S1024x1024_1_0_0_1_n_n_wf : DotDims.WF S1024x1024 S1024x1024 S1024x1024 [1] [0] [0] [1] [] []
  hrank0 : 0 < grid0.rank
  k0_off1_inb : ∀ i : grid0.Coords, ∀ a, (k0_off1 i) a + S1.size a ≤ S120.size a
  hstage0_0 : ∀ j, (stage0_0 j).IsWhole
  nbuf0_0 : grid0.bufCount reads0_0 false = 2
  hreads0_0 : ∀ {F : FTy → Type} [FloatOps F] (pf : pre0.Contents (Elt F)) (i i' : grid0.Coords), (∀ a, reads0_0 a = true → i a = i' a) → cc0_transform_0 k0_off1_inb numel1_S1 pf i = cc0_transform_0 k0_off1_inb numel1_S1 pf i'
  hstage0_1 : ∀ j, (stage0_1 j).IsWhole
  nbuf0_1 : grid0.bufCount reads0_1 false = 2
  hreads0_1 : ∀ {F : FTy → Type} [FloatOps F] (pf : pre0.Contents (Elt F)) (i i' : grid0.Coords), (∀ a, reads0_1 a = true → i a = i' a) → cc0_transform_1 k0_off1_inb numel1_S1 pf i = cc0_transform_1 k0_off1_inb numel1_S1 pf i'
  hstage0_2 : ∀ j, (stage0_2 j).IsWhole
  nbuf0_2 : grid0.bufCount reads0_2 false = 2
  hreads0_2 : ∀ {F : FTy → Type} [FloatOps F] (pf : pre0.Contents (Elt F)) (i i' : grid0.Coords), (∀ a, reads0_2 a = true → i a = i' a) → cc0_transform_2 k0_off1_inb numel1_S1 pf i = cc0_transform_2 k0_off1_inb numel1_S1 pf i'

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev spec0_0 : Pipeline.WinSpec sig grid0.rank :=
  Pipeline.WinSpec.ofSpec (Memref.whole main_arg0) S1024x1024.size reads0_0 false false 2 stage0_0 sem0_0 nbuf0_0 hstage0_0

abbrev spec0_1 : Pipeline.WinSpec sig grid0.rank :=
  Pipeline.WinSpec.ofSpec (Memref.whole main_arg1) S1024x1024.size reads0_1 false false 2 stage0_1 sem0_1 nbuf0_1 hstage0_1

abbrev spec0_2 : Pipeline.WinSpec sig grid0.rank :=
  Pipeline.WinSpec.ofSpec (Memref.whole main_v0) S1024x1024.size reads0_2 true false 2 stage0_2 sem0_2 nbuf0_2 hstage0_2

abbrev spec0 : Fin 3 → Pipeline.WinSpec sig grid0.rank := fun | 0 => spec0_0 | 1 => spec0_1 | 2 => spec0_2 | ⟨_ + 3, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | ⟨_ + 3, h⟩ => absurd h (Nat.not_lt.2 (Nat.le_add_left _ _))
abbrev ix0 (pf : pre0.Contents (Elt F)) : (w : Fin 3) → grid0.Coords → Fin (spec0 w).shape.rank → Nat := fun | 0 => cc0_transform_0 k0_off1_inb numel1_S1 pf | 1 => cc0_transform_1 k0_off1_inb numel1_S1 pf | 2 => cc0_transform_2 k0_off1_inb numel1_S1 pf | ⟨_ + 3, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 pf | 1 => hreads0_1 pf | 2 => hreads0_2 pf | ⟨_ + 3, h⟩ => absurd h (Nat.not_lt.2 (Nat.le_add_left _ _))
def ok0 (pf : pre0.Contents (Elt F)) : Prop :=
  (∀ i : grid0.Coords, ∃ h : (∀ a, (cc0_transform_0 k0_off1_inb numel1_S1 pf i a + 1) * S1024x1024.size a ≤ S8192x8192.size a), EltTy.bits .f32 = 32 ∨ (Rect.block (s := S8192x8192) S1024x1024.size (cc0_transform_0 k0_off1_inb numel1_S1 pf i) h).WholeWords (EltTy.packing .f32)) ∧
  (∀ i : grid0.Coords, ∃ h : (∀ a, (cc0_transform_1 k0_off1_inb numel1_S1 pf i a + 1) * S1024x1024.size a ≤ S8192x8192.size a), EltTy.bits .f32 = 32 ∨ (Rect.block (s := S8192x8192) S1024x1024.size (cc0_transform_1 k0_off1_inb numel1_S1 pf i) h).WholeWords (EltTy.packing .f32)) ∧
  (∀ i : grid0.Coords, ∃ h : (∀ a, (cc0_transform_2 k0_off1_inb numel1_S1 pf i a + 1) * S1024x1024.size a ≤ S8192x8192.size a), EltTy.bits .f32 = 32 ∨ (Rect.block (s := S8192x8192) S1024x1024.size (cc0_transform_2 k0_off1_inb numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => fun i a => (hok.1 i).elim fun h _ => h a | 1 => fun i a => (hok.2.1 i).elim fun h _ => h a | 2 => fun i a => (hok.2.2 i).elim fun h _ => h a | ⟨_ + 3, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => fun i => (hok.1 i).elim fun _ h => h | 1 => fun i => (hok.2.1 i).elim fun _ h => h | 2 => fun i => (hok.2.2 i).elim fun _ h => h | ⟨_ + 3, h⟩ => absurd h (Nat.not_lt.2 (Nat.le_add_left _ _))
abbrev idle0 (pf : pre0.Contents (Elt F)) : Fin 3 → grid0.Coords → Bool := fun | 0 => fun _ => false | 1 => fun _ => false | 2 => fun i => !(k0_cond2 (pf.atD 0 (k0_off1 i)) (pf.atD 2 (k0_off1 i)) == 1#1) | ⟨_ + 3, h⟩ => absurd h (Nat.not_lt.2 (Nat.le_add_left _ _))

class Facts : Prop extends Facts₀ where
  harr0 : ∀ w, (spec0 w).arr.IsWhole

variable [Facts]
-- ==== ReferenceIdeal.lean ====
abbrev S8192x8192 : Shape := ⟨2, ![8192, 8192]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x8192, .f32⟩
  | .hbm, ⟨2, _⟩ => ⟨S8192x8192, .f32⟩
  | .hbm, ⟨3, _⟩ => ⟨S8192x8192, .i32⟩
  | .hbm, ⟨4, _⟩ => ⟨S_, .i32⟩
  | .hbm, ⟨5, _⟩ => ⟨S8192x8192, .i32⟩
  | .hbm, ⟨6, _⟩ => ⟨S8192x8192, .i32⟩
  | .hbm, ⟨7, _⟩ => ⟨S8192x8192, .i32⟩
  | .hbm, ⟨8, _⟩ => ⟨S8192x8192, .i1⟩
  | .hbm, ⟨9, _⟩ => ⟨S_, .f32⟩
  | .hbm, ⟨10, _⟩ => ⟨S8192x8192, .f32⟩
  | .hbm, ⟨11, _⟩ => ⟨S8192x8192, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_c : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_cst : Ref sig .tc := ⟨.hbm, 9, rfl⟩
abbrev main_call0_v5 : Ref sig .tc := ⟨.hbm, 10, rfl⟩
abbrev main_v1 : Ref sig .tc := ⟨.hbm, 11, rfl⟩

abbrev nD : Nat := 1
abbrev τ : Topo := Topo.v7x

variable {F : FTy → Type} [FloatOps F]

class Facts₀ : Prop where
  bcast_S_S8192x8192 : S_.BroadcastsInDim S8192x8192 (![] : Fin 0 → Fin S8192x8192.rank)
  dot_S8192x8192_S8192x8192_S8192x8192_1_0_0_1_n_n_wf : DotDims.WF S8192x8192 S8192x8192 S8192x8192 [1] [0] [0] [1] [] []

variable [Facts₀]

def dot_S8192x8192_S8192x8192_S8192x8192_1_0_0_1_n_n : DotDims S8192x8192 S8192x8192 S8192x8192 where
  lhsContracting := [1]
  rhsContracting := [0]
  lhsNonContracting := [0]
  rhsNonContracting := [1]
  lhsBatch := []
  rhsBatch := []
  wf := dot_S8192x8192_S8192x8192_S8192x8192_1_0_0_1_n_n_wf

class Facts : Prop extends Facts₀ where

variable [Facts]
-- ==== Proof.KI.Kit.lean ====
/-
  The lower-triangular block product as a pipeline: what the frame and the value of the kernel's run are stated over.
  The grid walks 120 points; point t carries a triple (i, j, k) read from three constant tables: it multiplies block
  (i, k) of the left matrix by block (k, j) of the right one into an accumulator kept in scratch, which it zeroes first
  when k = j and copies into the output's block (i, j) when k = i. This module fixes the contents of every buffer when
  the region is entered (the three tables are literal constants written just before it), the tables as the region
  reads them, the blocks of the two input windows, the staging and scratch memrefs a point is run on, the two
  conditions of a point as propositions over the tables' words, and how the host operations around the region
  (the tables before, the triangular mask after) compose with it.
-/
import proofs.«145046_j66924180406522_1_alg».proof.Proof.Gen.KernelIdeal.Launch
import proofs.«145046_j66924180406522_1_alg».proof.Proof.Gen.KernelIdeal.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Tri

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Facts₀ Facts

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the region is entered -/

/-- Core `c`'s buffer contents when the region is entered: the launch contents with the three tables written. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the three table constants, the region, then the mask's operations: it reduces to the region continued
    by the mask's operations, entered at `V`. -/
theorem hmain (𝒱₀ : Variants) : Pipeline.HMainPK (Ix := Unit) (Name := ℕ) (U := UR sig nD τ) (Lvl := ℕ) pcfgs 0 defs₀ 𝒱₀ m (main (F := F)) (V m)
      (fun _ => Pipeline.chain [StableHlo.seq hostOps1]) :=
  Pipeline.hmainP_around pcfgs 0 defs₀ 𝒱₀ m main [hostOps0] [hostOps1] hostOps0_sub hostOps0_fresh (fun c => (main_chain c).trans rfl)

/-- The two arguments are not written before the region. -/
theorem V_main_arg0 (c : Dev nD) : V m c main_arg0 = m ((c : Thread nD τ).loc main_arg0) := by
  dsimp only [V, V0]; simp only [hostOps0, List.flatten_cons, List.flatten_nil, List.append_nil]; after_results
theorem V_main_arg1 (c : Dev nD) : V m c main_arg1 = m ((c : Thread nD τ).loc main_arg1) := by
  dsimp only [V, V0]; simp only [hostOps0, List.flatten_cons, List.flatten_nil, List.append_nil]; after_results

/-! ## The tables -/

/-- The three tables' contents: the row-block index i, the column-block index j and the contraction-block index k of
    each of the 120 points, literal constants of the program. -/
def tbl : pre0.Contents (Elt F) := fun j => match j with
  | ⟨0, _⟩ => (fun i => lit0 (S120.rowMajor i) : (⟨S120, .i32⟩ : BufTy).Contents (Elt F))
  | ⟨1, _⟩ => (fun i => lit1 (S120.rowMajor i) : (⟨S120, .i32⟩ : BufTy).Contents (Elt F))
  | ⟨2, _⟩ => (fun i => lit2 (S120.rowMajor i) : (⟨S120, .i32⟩ : BufTy).Contents (Elt F))

/-- When the region is entered the tables hold them, on every core. -/
theorem V_pre (c : Dev nD) (j : Fin 3) : V m c (pre0.ref j) = tbl (F := F) j := by
  obtain ⟨j, hj⟩ := j
  match j, hj with
  | 0, _ => dsimp only [V, V0]; simp only [hostOps0, List.flatten_cons, List.flatten_nil, List.append_nil]; after_results; rfl
  | 1, _ => dsimp only [V, V0]; simp only [hostOps0, List.flatten_cons, List.flatten_nil, List.append_nil]; after_results; rfl
  | 2, _ => dsimp only [V, V0]; simp only [hostOps0, List.flatten_cons, List.flatten_nil, List.append_nil]; after_results; rfl

/-- The pipeline's side condition of the tables: every block the three index maps name lies inside its array. -/
abbrev Ok : Prop := ok0 (F := F) (tbl (F := F))
/-- The tables as admissible contents, and the pipeline at them. -/
abbrev adm (hO : Ok (F := F)) : (pcfg0 (F := F)).Adm := ⟨tbl, hO⟩
abbrev cfgM (hO : Ok (F := F)) : Pipeline.Cfg sig Λ₀ := cfg0 (adm hO)

/-- Each table as the body is handed it: its whole buffer as a memref. -/
abbrev tbM0_0 : Memref sig .tc .smem S120 .i32 := Memref.whole main_c
abbrev htbM0_0 : tbM0_0.IsWhole := Memref.isWhole_whole _
abbrev tbM0_1 : Memref sig .tc .smem S120 .i32 := Memref.whole main_c_0
abbrev htbM0_1 : tbM0_1.IsWhole := Memref.isWhole_whole _
abbrev tbM0_2 : Memref sig .tc .smem S120 .i32 := Memref.whole main_c_1
abbrev htbM0_2 : tbM0_2.IsWhole := Memref.isWhole_whole _

/-- A table's buffer on core `c`: its contents type, and the buffer held at half the full share at `f` (read-only: the
    pipeline keeps the other half for its index maps). -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body, table by table. -/
theorem PhiT0_eq (c : Dev nD) : (Pipeline.ΦT pre0 (tbl (F := F)) c : sProp 𝕄) = iprop(tbPt0 c tbM0_0 (tbl 0) ∗ tbPt0 c tbM0_1 (tbl 1) ∗ tbPt0 c tbM0_2 (tbl 2)) := by
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

/-! ## The windows' blocks -/

/-- Window `w`'s block at point `t`, read off its array as the region finds it: a function of the tables' words. -/
def iblk (hO : Ok (F := F)) (c : Dev nD) (w : Fin (cfgM hO).W) (t : Fin (cfgM hO).N) : (((cfgM hO).win w).xblock ((cfgM hO).grid.coords t)).Idx → Elt F ((cfgM hO).win w).elt :=
  (((cfgM hO).win w).blk t).view.read (Elt F) (V m c (Pipeline.arrRef spec0 w))

/-- An input window's current staging buffer holds its block at every point, fetched there or not, for any proof data
    whose array is the entry contents and whose body leaves the block in place. -/
theorem before0_0_of (hO : Ok (F := F)) {c : Dev nD} (dat : Dat τ (Elt F) Unit ℕ (UR sig nD τ) ℕ (cfgM hO) c) (hA : dat.A 0 = V m c (Pipeline.arrRef spec0 0))
    (hafter : ∀ t, dat.after 0 t = iblk m hO c 0 t) (t : Fin (cfgM hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of (hO : Ok (F := F)) {c : Dev nD} (dat : Dat τ (Elt F) Unit ℕ (UR sig nD τ) ℕ (cfgM hO) c) (hA : dat.A 1 = V m c (Pipeline.arrRef spec0 1))
    (hafter : ∀ t, dat.after 1 t = iblk m hO c 1 t) (t : Fin (cfgM hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The memrefs a point is run on -/

/-- One staging buffer of the output window, through which its contents are stated. -/
abbrev VO0_2 : View sig .tc .vmem S1024x1024 .f32 := (Memref.whole cc0_stg2_0 : Memref sig .tc .vmem S1024x1024 .f32).view
/-- Each window's current staging memref at point `t`, spelled as the pipeline passes it, and its wholeness. -/
abbrev ms0_0 (hO : Ok (F := F)) (t : Fin (cfgM hO).N) : Memref sig .tc .vmem S1024x1024 .f32 := spec0_0.stage ((cfgM hO).slots t 0)
abbrev hs0_0 (hO : Ok (F := F)) (t : Fin (cfgM hO).N) : (ms0_0 hO t).IsWhole := Facts₀.hstage0_0 (((cfgM hO).slots t 0).cast Facts₀.nbuf0_0)
abbrev ms0_1 (hO : Ok (F := F)) (t : Fin (cfgM hO).N) : Memref sig .tc .vmem S1024x1024 .f32 := spec0_1.stage ((cfgM hO).slots t 1)
abbrev hs0_1 (hO : Ok (F := F)) (t : Fin (cfgM hO).N) : (ms0_1 hO t).IsWhole := Facts₀.hstage0_1 (((cfgM hO).slots t 1).cast Facts₀.nbuf0_1)
abbrev ms0_2 (hO : Ok (F := F)) (t : Fin (cfgM hO).N) : Memref sig .tc .vmem S1024x1024 .f32 := spec0_2.stage ((cfgM hO).slots t 2)
abbrev hs0_2 (hO : Ok (F := F)) (t : Fin (cfgM hO).N) : (ms0_2 hO t).IsWhole := Facts₀.hstage0_2 (((cfgM hO).slots t 2).cast Facts₀.nbuf0_2)
/-- The accumulator: a whole scoped buffer of the kernel's own, passed beside the windows. -/
abbrev scM0_0 : Memref sig .tc .vmem S1024x1024 .f32 := Memref.whole cc0_scratch0
abbrev VS0_0 : View sig .tc .vmem S1024x1024 .f32 := scM0_0.view

/-- The class invariant with the accumulator as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-- The kernel body at point `t`, on what the pipeline calls it with. -/
abbrev bodyAt0 (a : (pcfg0 (F := F)).Adm) (t : Fin (cfg0 a).N) : Prog (TpuEff nD τ sig (Elt F) Λ₀ .tc) PUnit :=
  cc0__tri_matmul_kernel (grid0.coords t) (Memref.whole main_c) (Memref.isWhole_whole _) (Memref.whole main_c_0) (Memref.isWhole_whole _) (Memref.whole main_c_1) (Memref.isWhole_whole _) (spec0_0.stage ((cfg0 a).slots t 0)) (Facts₀.hstage0_0 (((cfg0 a).slots t 0).cast Facts₀.nbuf0_0)) (spec0_1.stage ((cfg0 a).slots t 1)) (Facts₀.hstage0_1 (((cfg0 a).slots t 1).cast Facts₀.nbuf0_1)) (spec0_2.stage ((cfg0 a).slots t 2)) (Facts₀.hstage0_2 (((cfg0 a).slots t 2).cast Facts₀.nbuf0_2)) (Memref.whole cc0_scratch0) (Memref.isWhole_whole _)

/-! ## The mask's operations after the region -/

/-- They touch the pipeline's arrays and the buffers that bypass the region only: none is a table. -/
theorem sfx_sub : ∀ ops ∈ ([hostOps1] : List (List (HloOp τ sig (Elt F)))), ∀ op ∈ ops,
    op.bufs ⊆ Pipeline.tailRefs sig pre0 spec0 := by
  intro ops hops op hop
  simp only [List.mem_cons, List.mem_nil_iff, or_false] at hops
  rcases hops with rfl
  refine Pipeline.sub_tailRefs pre0 spec0 op ((List.forall_iff_forall_mem.mp hostOps1_sub) op hop) ?_
  intro k
  simp only [hostOps1, List.mem_cons, List.mem_nil_iff, or_false] at hop
  rcases hop with rfl | rfl | rfl | rfl | rfl | rfl | rfl | rfl | rfl
  all_goals fin_cases k <;> simp only [StableHlo.TRef.nullary, StableHlo.TRef.unary, StableHlo.TRef.binary, StableHlo.TRef.ternary, StableHlo.nullary_bufs, StableHlo.unary_bufs, StableHlo.binary_bufs, StableHlo.ternary_bufs, Finset.mem_insert, Finset.mem_singleton, not_or] <;> (repeat' constructor) <;> exact StableHlo.devRef_ne_of_ne (by decide)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl
    all_goals intro w; fin_cases w <;> simp only [StableHlo.TRef.nullary, StableHlo.TRef.unary, StableHlo.TRef.binary, StableHlo.TRef.ternary, StableHlo.nullary_writes, StableHlo.unary_writes, StableHlo.binary_writes, StableHlo.ternary_writes, Finset.mem_singleton] <;> exact StableHlo.devRef_ne_of_ne (by decide)

/-! ## The frame claim's post from the frame run's -/

/-- For any proof data whose arrays are the entry contents, a run to the library's frame post, read at the two
    argument arrays (both staged inputs), is the frame claim's post. -/
theorem frame_of (hO : Ok (F := F)) (dats : (p : Fin 1) → (c : Dev nD) → Dat τ (Elt F) Unit ℕ (UR sig nD τ) ℕ ((Pipeline.pin pcfgs fun _ => adm hO) p) c)
    (hA : ∀ c w, (dats 0 c).A w = V m c (Pipeline.arrRef spec0 w))
    (h : θ_run defs (onTc (τ := τ) (main (F := F))) (s₀ m ρ) (Pipeline.FramePost (Pipeline.pin pcfgs fun _ => adm hO) dats 0 (Pipeline.afterTail pcfgs (fun _ => adm hO) dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c)))⟩) h

end Cert.KernelIdeal.Tri

end
-- ==== Proof.KI.Runs.lean ====
/-
  One grid point's body, run once for each of the four ways its two conditions can fall: whether the accumulator is
  zeroed first (the contraction block is the group's first, k = j) and whether it is copied to the output's block
  afterwards (the contraction block is the group's last, k = i). The conditions are read from the tables' words at the
  point's own position; the body loads the two input blocks, adds their product to the accumulator and stores it back.
  What the stores leave in each buffer is a list of pieces the run itself finds.
-/
import proofs.«145046_j66924180406522_1_alg».proof.Proof.KI.Kit

set_option maxRecDepth 16384

noncomputable section

namespace Cert.KernelIdeal.Tri

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Facts₀ Facts

variable {F : FTy → Type} [FloatOps F]

local notation "𝕄" => MT nD τ sig Unit (Elt F) ℕ (UR sig nD τ) ℕ

/-- The word the point with coordinates `i` reads from a table, at its own position, when the table holds `xt`. -/
abbrev wordAt (c : Dev nD) (i : grid0.Coords) (M : Memref sig .tc .smem S120 .i32) (xt : TbBuf0 (F := F) c M) : BitVec 32 :=
  M.view.readAt (Elt F) (Rect.unit (s := S120) (k0_off1 i) S1.size (Facts₀.k0_off1_inb i)).toLoadRect xt (Shape.Idx.first (Facts₀.numel1_S1.symm ▸ Nat.one_pos))

/-- The accumulator is zeroed first: the contraction block's word equals the column block's word. -/
abbrev condReset (vJ vK : BitVec 32) : Prop := Scalar.cmpi .ne (Scalar.extui (Scalar.cmpi .eq vK vJ) : BitVec 32) 0#32 = 1#1
/-- The accumulator is copied out: the contraction block's word equals the row block's word. -/
abbrev condFlush (vI vK : BitVec 32) : Prop := k0_cond2 vI vK = 1#1

set_option maxHeartbeats 1000000 in
/-- The body on any whole staging memrefs, at a point where the accumulator is zeroed first and is copied to the
    output's block: it runs to the continuation holding the inputs' blocks as they were, the tables as they were, the
    accumulator with the pieces its stores wrote, and the output's buffer with the piece copied into it. -/
noncomputable def kernelRun0_TT (c : Dev nD) (i : grid0.Coords) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole)
    (x0 x1 : Vec F S1024x1024 .f32) (xt0 : TbBuf0 (F := F) c tbM0_0) (xt1 : TbBuf0 (F := F) c tbM0_1) (xt2 : TbBuf0 (F := F) c tbM0_2)
    (hc1 : condReset (wordAt c i tbM0_1 xt1) (wordAt c i tbM0_2 xt2)) (hc2 : condFlush (wordAt c i tbM0_0 xt0) (wordAt c i tbM0_2 xt2)) :
    Σ' (L2 : List (View.Piece (Elt F) S1024x1024 .f32)), { LS0 : List (View.Piece (Elt F) S1024x1024 .f32) //
      ∀ (E : Set ℕ) (K : PUnit → sProp 𝕄),
        iprop(owns (c : Thread nD τ) arg4 fullShare x0 ∗ owns (c : Thread nD τ) arg5 fullShare x1 ∗ (∃ d, owns (c : Thread nD τ) arg6 fullShare d) ∗ (∃ d, owns (c : Thread nD τ) arg7 fullShare d)
            ∗ tbPt0 c tbM0_0 xt0 ∗ tbPt0 c tbM0_1 xt1 ∗ tbPt0 c tbM0_2 xt2
            ∗ (iprop(owns (c : Thread nD τ) arg4 fullShare x0 ∗ owns (c : Thread nD τ) arg5 fullShare x1 ∗ (∃ f, arg6.view.loc (c : Thread nD τ) ↦[arg6.view.set]{fullShare} arg6.view.writes (Elt F) f L2) ∗ (∃ f, arg7.view.loc (c : Thread nD τ) ↦[arg7.view.set]{fullShare} arg7.view.writes (Elt F) f LS0)
                ∗ tbPt0 c tbM0_0 xt0 ∗ tbPt0 c tbM0_1 xt1 ∗ tbPt0 c tbM0_2 xt2) -∗ K ⟨⟩))
          ⊢ wp frame (wpE (defs₀ (F := F)) Variants.none c none) E (cc0__tri_matmul_kernel i tbM0_0 htbM0_0 tbM0_1 htbM0_1 tbM0_2 htbM0_2 arg4 harg4 arg5 harg5 arg6 harg6 arg7 harg7) K } := by
  refine ⟨?_, ?_, fun E K => ?run⟩
  case run =>
    simp only [cc0__tri_matmul_kernel_eq_skeleton]; unfold cc0__tri_matmul_kernel_skel
    unfold owns
    iintro ⟨⟨%f0, %hf0, H0⟩, ⟨%f1, %hf1, H1⟩, ⟨%d2, %f2, %hf2, H2⟩, ⟨%ds0, %fs0, -, HS0⟩, HT0, HT1, HT2, Hk⟩
    obtain rfl := harg4.eq_unread hf0; obtain rfl := harg5.eq_unread hf1
    sl_exec (disch := first | exact hc1 | exact hc2)
    sl_step
    iapply Hk
    isplitl [H0]
    · iexists _; isplitr
      · ipureintro; exact harg4.read_unread _
      · iexact H0
    isplitl [H1]
    · iexists _; isplitr
      · ipureintro; exact harg5.read_unread _
      · iexact H1
    isplitl [H2]
    · iexists _; iexact H2
    isplitl [HS0]
    · iexists _; iexact HS0
    isplitl [HT0]
    · iexact HT0
    isplitl [HT1]
    · iexact HT1
    iexact HT2

set_option maxHeartbeats 1000000 in
/-- The body on any whole staging memrefs, at a point where the accumulator is zeroed first and is NOT copied to the
    output's block: it runs to the continuation holding the inputs' blocks as they were, the tables as they were, the
    accumulator with the pieces its stores wrote, and the output's buffer as it was. -/
noncomputable def kernelRun0_TF (c : Dev nD) (i : grid0.Coords) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole)
    (x0 x1 : Vec F S1024x1024 .f32) (xt0 : TbBuf0 (F := F) c tbM0_0) (xt1 : TbBuf0 (F := F) c tbM0_1) (xt2 : TbBuf0 (F := F) c tbM0_2)
    (hc1 : condReset (wordAt c i tbM0_1 xt1) (wordAt c i tbM0_2 xt2)) (hc2 : ¬ condFlush (wordAt c i tbM0_0 xt0) (wordAt c i tbM0_2 xt2)) :
    { LS0 : List (View.Piece (Elt F) S1024x1024 .f32) //
      ∀ (d2 : Vec F S1024x1024 .f32) (E : Set ℕ) (K : PUnit → sProp 𝕄),
        iprop(owns (c : Thread nD τ) arg4 fullShare x0 ∗ owns (c : Thread nD τ) arg5 fullShare x1 ∗ owns (c : Thread nD τ) arg6 fullShare d2 ∗ (∃ d, owns (c : Thread nD τ) arg7 fullShare d)
            ∗ tbPt0 c tbM0_0 xt0 ∗ tbPt0 c tbM0_1 xt1 ∗ tbPt0 c tbM0_2 xt2
            ∗ (iprop(owns (c : Thread nD τ) arg4 fullShare x0 ∗ owns (c : Thread nD τ) arg5 fullShare x1 ∗ owns (c : Thread nD τ) arg6 fullShare d2 ∗ (∃ f, arg7.view.loc (c : Thread nD τ) ↦[arg7.view.set]{fullShare} arg7.view.writes (Elt F) f LS0)
                ∗ tbPt0 c tbM0_0 xt0 ∗ tbPt0 c tbM0_1 xt1 ∗ tbPt0 c tbM0_2 xt2) -∗ K ⟨⟩))
          ⊢ wp frame (wpE (defs₀ (F := F)) Variants.none c none) E (cc0__tri_matmul_kernel i tbM0_0 htbM0_0 tbM0_1 htbM0_1 tbM0_2 htbM0_2 arg4 harg4 arg5 harg5 arg6 harg6 arg7 harg7) K } := by
  refine ⟨?_, fun d2 E K => ?run⟩
  case run =>
    simp only [cc0__tri_matmul_kernel_eq_skeleton]; unfold cc0__tri_matmul_kernel_skel
    unfold owns
    iintro ⟨⟨%f0, %hf0, H0⟩, ⟨%f1, %hf1, H1⟩, ⟨%f2, %hf2, H2⟩, ⟨%ds0, %fs0, -, HS0⟩, HT0, HT1, HT2, Hk⟩
    obtain rfl := harg4.eq_unread hf0; obtain rfl := harg5.eq_unread hf1
    sl_exec (disch := first | exact hc1 | exact hc2)
    sl_step
    iapply Hk
    isplitl [H0]
    · iexists _; isplitr
      · ipureintro; exact harg4.read_unread _
      · iexact H0
    isplitl [H1]
    · iexists _; isplitr
      · ipureintro; exact harg5.read_unread _
      · iexact H1
    isplitl [H2]
    · iexists _; isplitr
      · ipureintro; exact hf2
      · iexact H2
    isplitl [HS0]
    · iexists _; iexact HS0
    isplitl [HT0]
    · iexact HT0
    isplitl [HT1]
    · iexact HT1
    iexact HT2

set_option maxHeartbeats 1000000 in
/-- The body on any whole staging memrefs, at a point where the accumulator is NOT zeroed first and is copied to the
    output's block: it runs to the continuation holding the inputs' blocks as they were, the tables as they were, the
    accumulator with the pieces its stores wrote, and the output's buffer with the piece copied into it. -/
noncomputable def kernelRun0_FT (c : Dev nD) (i : grid0.Coords) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole)
    (x0 x1 : Vec F S1024x1024 .f32) (xs0 : Vec F S1024x1024 .f32) (xt0 : TbBuf0 (F := F) c tbM0_0) (xt1 : TbBuf0 (F := F) c tbM0_1) (xt2 : TbBuf0 (F := F) c tbM0_2)
    (hc1 : ¬ condReset (wordAt c i tbM0_1 xt1) (wordAt c i tbM0_2 xt2)) (hc2 : condFlush (wordAt c i tbM0_0 xt0) (wordAt c i tbM0_2 xt2)) :
    Σ' (L2 : List (View.Piece (Elt F) S1024x1024 .f32)), { LS0 : List (View.Piece (Elt F) S1024x1024 .f32) //
      ∀ (E : Set ℕ) (K : PUnit → sProp 𝕄),
        iprop(owns (c : Thread nD τ) arg4 fullShare x0 ∗ owns (c : Thread nD τ) arg5 fullShare x1 ∗ (∃ d, owns (c : Thread nD τ) arg6 fullShare d) ∗ owns (c : Thread nD τ) arg7 fullShare xs0
            ∗ tbPt0 c tbM0_0 xt0 ∗ tbPt0 c tbM0_1 xt1 ∗ tbPt0 c tbM0_2 xt2
            ∗ (iprop(owns (c : Thread nD τ) arg4 fullShare x0 ∗ owns (c : Thread nD τ) arg5 fullShare x1 ∗ (∃ f, arg6.view.loc (c : Thread nD τ) ↦[arg6.view.set]{fullShare} arg6.view.writes (Elt F) f L2) ∗ (∃ f, arg7.view.loc (c : Thread nD τ) ↦[arg7.view.set]{fullShare} arg7.view.writes (Elt F) f LS0)
                ∗ tbPt0 c tbM0_0 xt0 ∗ tbPt0 c tbM0_1 xt1 ∗ tbPt0 c tbM0_2 xt2) -∗ K ⟨⟩))
          ⊢ wp frame (wpE (defs₀ (F := F)) Variants.none c none) E (cc0__tri_matmul_kernel i tbM0_0 htbM0_0 tbM0_1 htbM0_1 tbM0_2 htbM0_2 arg4 harg4 arg5 harg5 arg6 harg6 arg7 harg7) K } := by
  refine ⟨?_, ?_, fun E K => ?run⟩
  case run =>
    simp only [cc0__tri_matmul_kernel_eq_skeleton]; unfold cc0__tri_matmul_kernel_skel
    unfold owns
    iintro ⟨⟨%f0, %hf0, H0⟩, ⟨%f1, %hf1, H1⟩, ⟨%d2, %f2, %hf2, H2⟩, ⟨%fs0, %hfs0, HS0⟩, HT0, HT1, HT2, Hk⟩
    obtain rfl := harg4.eq_unread hf0; obtain rfl := harg5.eq_unread hf1; obtain rfl := harg7.eq_unread hfs0
    sl_exec (disch := first | exact hc1 | exact hc2)
    sl_step
    iapply Hk
    isplitl [H0]
    · iexists _; isplitr
      · ipureintro; exact harg4.read_unread _
      · iexact H0
    isplitl [H1]
    · iexists _; isplitr
      · ipureintro; exact harg5.read_unread _
      · iexact H1
    isplitl [H2]
    · iexists _; iexact H2
    isplitl [HS0]
    · iexists _; iexact HS0
    isplitl [HT0]
    · iexact HT0
    isplitl [HT1]
    · iexact HT1
    iexact HT2

set_option maxHeartbeats 1000000 in
/-- The body on any whole staging memrefs, at a point where the accumulator is NOT zeroed first and is NOT copied to the
    output's block: it runs to the continuation holding the inputs' blocks as they were, the tables as they were, the
    accumulator with the pieces its stores wrote, and the output's buffer as it was. -/
noncomputable def kernelRun0_FF (c : Dev nD) (i : grid0.Coords) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole)
    (x0 x1 : Vec F S1024x1024 .f32) (xs0 : Vec F S1024x1024 .f32) (xt0 : TbBuf0 (F := F) c tbM0_0) (xt1 : TbBuf0 (F := F) c tbM0_1) (xt2 : TbBuf0 (F := F) c tbM0_2)
    (hc1 : ¬ condReset (wordAt c i tbM0_1 xt1) (wordAt c i tbM0_2 xt2)) (hc2 : ¬ condFlush (wordAt c i tbM0_0 xt0) (wordAt c i tbM0_2 xt2)) :
    { LS0 : List (View.Piece (Elt F) S1024x1024 .f32) //
      ∀ (d2 : Vec F S1024x1024 .f32) (E : Set ℕ) (K : PUnit → sProp 𝕄),
        iprop(owns (c : Thread nD τ) arg4 fullShare x0 ∗ owns (c : Thread nD τ) arg5 fullShare x1 ∗ owns (c : Thread nD τ) arg6 fullShare d2 ∗ owns (c : Thread nD τ) arg7 fullShare xs0
            ∗ tbPt0 c tbM0_0 xt0 ∗ tbPt0 c tbM0_1 xt1 ∗ tbPt0 c tbM0_2 xt2
            ∗ (iprop(owns (c : Thread nD τ) arg4 fullShare x0 ∗ owns (c : Thread nD τ) arg5 fullShare x1 ∗ owns (c : Thread nD τ) arg6 fullShare d2 ∗ (∃ f, arg7.view.loc (c : Thread nD τ) ↦[arg7.view.set]{fullShare} arg7.view.writes (Elt F) f LS0)
                ∗ tbPt0 c tbM0_0 xt0 ∗ tbPt0 c tbM0_1 xt1 ∗ tbPt0 c tbM0_2 xt2) -∗ K ⟨⟩))
          ⊢ wp frame (wpE (defs₀ (F := F)) Variants.none c none) E (cc0__tri_matmul_kernel i tbM0_0 htbM0_0 tbM0_1 htbM0_1 tbM0_2 htbM0_2 arg4 harg4 arg5 harg5 arg6 harg6 arg7 harg7) K } := by
  refine ⟨?_, fun d2 E K => ?run⟩
  case run =>
    simp only [cc0__tri_matmul_kernel_eq_skeleton]; unfold cc0__tri_matmul_kernel_skel
    unfold owns
    iintro ⟨⟨%f0, %hf0, H0⟩, ⟨%f1, %hf1, H1⟩, ⟨%f2, %hf2, H2⟩, ⟨%fs0, %hfs0, HS0⟩, HT0, HT1, HT2, Hk⟩
    obtain rfl := harg4.eq_unread hf0; obtain rfl := harg5.eq_unread hf1; obtain rfl := harg7.eq_unread hfs0
    sl_exec (disch := first | exact hc1 | exact hc2)
    sl_step
    iapply Hk
    isplitl [H0]
    · iexists _; isplitr
      · ipureintro; exact harg4.read_unread _
      · iexact H0
    isplitl [H1]
    · iexists _; isplitr
      · ipureintro; exact harg5.read_unread _
      · iexact H1
    isplitl [H2]
    · iexists _; isplitr
      · ipureintro; exact hf2
      · iexact H2
    isplitl [HS0]
    · iexists _; iexact HS0
    isplitl [HT0]
    · iexact HT0
    isplitl [HT1]
    · iexact HT1
    iexact HT2

end Cert.KernelIdeal.Tri

end
-- ==== Proof.KI.Tables.lean ====
/-
  The three tables, read as the schedule they spell. Point t carries the triple (i, j, k) = (lit0 t, lit1 t, lit2 t):
  the points run through the pairs j ≤ i in order, and for each pair through k = j, …, i. So the accumulator is zeroed
  exactly at a pair's first point (k = j), the output's block (i, j) is written back exactly after its last (k = i),
  and between the two the pair's points are consecutive. Every fact here is a finite check over the 120 points once the
  words the pipeline and the body read are identified with the literal tables' entries.
-/
import proofs.«145046_j66924180406522_1_alg».proof.Proof.KI.Runs

set_option maxRecDepth 16384

noncomputable section

namespace Cert.KernelIdeal.Tri

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Facts₀ Facts

variable {F : FTy → Type} [FloatOps F]

/-! ## The schedule, on the literal tables -/

/-- At point `n` the accumulator is zeroed first: k = j. -/
def resetB (n : Fin 120) : Bool := decide (lit2 n = lit1 n)
/-- At point `n` the accumulator is copied out: k = i. -/
def flushB (n : Fin 120) : Bool := decide (lit2 n = lit0 n)

/-- Every entry is a block index below 8, and j ≤ k ≤ i. -/
theorem lit_bounds : ∀ n : Fin 120, (lit0 n).toNat < 8 ∧ (lit1 n).toNat ≤ (lit2 n).toNat ∧ (lit2 n).toNat ≤ (lit0 n).toNat := by
  decide +kernel
/-- The first point zeroes the accumulator. -/
theorem resetB_zero : resetB ⟨0, by decide⟩ = true := by decide +kernel
/-- A point that zeroes the accumulator starts its pair: k = j. -/
theorem lit_of_reset : ∀ n : Fin 120, resetB n = true → lit2 n = lit1 n := by
  decide +kernel
/-- A point that does not is the successor, in the same pair, of the point before it: same i and j, k one more. -/
theorem lit_of_not_reset : ∀ n : Fin 120, resetB n = false → ∃ h : 0 < n.val,
    lit0 ⟨n.val - 1, by omega⟩ = lit0 n ∧ lit1 ⟨n.val - 1, by omega⟩ = lit1 n ∧ (lit2 ⟨n.val - 1, by omega⟩).toNat + 1 = (lit2 n).toNat := by
  decide +kernel
/-- A point that copies the accumulator out ends its pair: k = i. -/
theorem lit_of_flush : ∀ n : Fin 120, flushB n = true → lit2 n = lit0 n := by
  decide +kernel
/-- Every pair j ≤ i of block indices below 8 has its closing point. -/
theorem exists_flush : ∀ i j : Fin 8, j.val ≤ i.val → ∃ n : Fin 120, flushB n = true ∧ (lit0 n).toNat = i.val ∧ (lit1 n).toNat = j.val := by
  decide +kernel

/-! ## The pipeline at the tables -/

/-- Every entry of the three tables is below 8. -/
theorem lit_lt (n : Fin 120) : (lit0 n).toNat < 8 ∧ (lit1 n).toNat < 8 ∧ (lit2 n).toNat < 8 := by
  have h := lit_bounds n; omega

/-- The body's two conditions and the output window's idleness, on the tables' entries: k = j and k = i as the
    kernel's word comparisons spell them. -/
theorem cond_reset_lit : ∀ n : Fin 120, condReset (lit1 n) (lit2 n) ↔ resetB n = true := by decide +kernel
theorem cond_flush_lit : ∀ n : Fin 120, condFlush (lit0 n) (lit2 n) ↔ flushB n = true := by decide +kernel
theorem idle_lit : ∀ n : Fin 120, (k0_cond2 (lit0 n) (lit2 n) == 1#1) = flushB n := by decide +kernel

/-- The result block (i, j) of a point, as the output window's index map names it. -/
abbrev ix2L (n : Fin 120) : Fin 2 → Nat := ![(lit0 n).toNat, (lit1 n).toNat]

/-- The result block changes after a point, or the point is the last, exactly when k = i there. -/
theorem flush_lit : ∀ t : Fin grid0.N, (decide (t.val + 1 = grid0.N) || decide (∃ h : t.val + 1 < grid0.N, ix2L (Fin.cast N_0 ⟨t.val + 1, h⟩) ≠ ix2L (Fin.cast N_0 t))) = flushB (Fin.cast N_0 t) := by
  decide +kernel

/-- The table position a point with coordinates `i` reads: its own offset, as an index of the 120-entry tables. -/
abbrev tix (i : grid0.Coords) : S120.Idx :=
  (Rect.unit (s := S120) (k0_off1 i) S1.size (Facts₀.k0_off1_inb i)).emb (Shape.Idx.first (Facts₀.numel1_S1.symm ▸ Nat.one_pos))

/-- Point `t` reads position `t` of each table: as the index maps read it, as the body's loads read it, and as an offset. -/
theorem tix_val : ∀ t : Fin grid0.N, (S120.rowMajor (tix (grid0.coords t))).val = t.val := by decide +kernel
theorem idx_val : ∀ t : Fin grid0.N, (S120.rowMajor ((Rect.unit (s := S120) (k0_off1 (grid0.coords t)) S1.size (Facts₀.k0_off1_inb _)).toLoadRect.idx (Shape.Idx.first (Facts₀.numel1_S1.symm ▸ Nat.one_pos)))).val = t.val := by decide +kernel
theorem off_val : ∀ t : Fin grid0.N, k0_off1 (grid0.coords t) 0 = t.val := by decide +kernel
theorem inb1 (i : grid0.Coords) : ∀ a : Fin 1, k0_off1 i a + 1 ≤ S120.size a :=
  Fin.forall_fin_one.mpr (Facts₀.k0_off1_inb i 0)

/-- The three index maps at any contents of the tables: two words of the tables at the point's own position. -/
theorem tf_0 (pf : pre0.Contents (Elt F)) (i : grid0.Coords) :
    cc0_transform_0 Facts₀.k0_off1_inb Facts₀.numel1_S1 pf i = ![(pf 0 (tix i)).toNat, (pf 2 (tix i)).toNat] := rfl
theorem tf_1 (pf : pre0.Contents (Elt F)) (i : grid0.Coords) :
    cc0_transform_1 Facts₀.k0_off1_inb Facts₀.numel1_S1 pf i = ![(pf 2 (tix i)).toNat, (pf 1 (tix i)).toNat] := rfl
theorem tf_2 (pf : pre0.Contents (Elt F)) (i : grid0.Coords) :
    cc0_transform_2 Facts₀.k0_off1_inb Facts₀.numel1_S1 pf i = ![(pf 0 (tix i)).toNat, (pf 1 (tix i)).toNat] := rfl

/-- The tables' contents at an index: the literal table's entry at its row-major position. -/
theorem tbl0_apply (x : S120.Idx) : tbl (F := F) 0 x = lit0 (S120.rowMajor x) := rfl
theorem tbl1_apply (x : S120.Idx) : tbl (F := F) 1 x = lit1 (S120.rowMajor x) := rfl
theorem tbl2_apply (x : S120.Idx) : tbl (F := F) 2 x = lit2 (S120.rowMajor x) := rfl

/-- A block of 1024 × 1024 whose two block indices are below 8 lies inside the 8192 × 8192 array. -/
theorem inb_of (x y : Nat) (hx : x < 8) (hy : y < 8) :
    ∀ a : Fin 2, ((![x, y] : Fin 2 → Nat) a + 1) * S1024x1024.size a ≤ S8192x8192.size a := by
  intro a
  fin_cases a
  · show (x + 1) * 1024 ≤ 8192; omega
  · show (y + 1) * 1024 ≤ 8192; omega

/-- The blocks the three index maps name lie inside the 8 × 8 grid of blocks. -/
theorem ok : Ok (F := F) := by
  show ok0 (tbl (F := F))
  unfold ok0
  refine ⟨fun i => ⟨?_, .inl rfl⟩, fun i => ⟨?_, .inl rfl⟩, fun i => ⟨?_, .inl rfl⟩⟩
  · rw [tf_0, tbl0_apply, tbl2_apply]
    exact inb_of _ _ (lit_lt _).1 (lit_lt _).2.2
  · rw [tf_1, tbl2_apply, tbl1_apply]
    exact inb_of _ _ (lit_lt _).2.2 (lit_lt _).2.1
  · rw [tf_2, tbl0_apply, tbl1_apply]
    exact inb_of _ _ (lit_lt _).1 (lit_lt _).2.1

/-- The grid has 120 points. -/
theorem N_M (hO : Ok (F := F)) : (cfgM hO).N = 120 := N_0
/-- A point of the pipeline as an index into the tables. -/
abbrev pt (hO : Ok (F := F)) (t : Fin (cfgM hO).N) : Fin 120 := Fin.cast (N_M hO) t

/-- The position a point reads, as an index into the tables. -/
theorem tixN (hO : Ok (F := F)) (t : Fin (cfgM hO).N) : S120.rowMajor (tix (grid0.coords t)) = pt hO t := Fin.ext (tix_val t)

/-- The windows' block indices at any admissible contents are the index maps at the point's coordinates. -/
theorem index_0 (a : (pcfg0 (F := F)).Adm) (t : Fin (cfg0 a).N) : ((cfg0 a).win 0).index t = cc0_transform_0 Facts₀.k0_off1_inb Facts₀.numel1_S1 a.1 (grid0.coords t) := rfl
theorem index_1 (a : (pcfg0 (F := F)).Adm) (t : Fin (cfg0 a).N) : ((cfg0 a).win 1).index t = cc0_transform_1 Facts₀.k0_off1_inb Facts₀.numel1_S1 a.1 (grid0.coords t) := rfl
theorem index_2 (a : (pcfg0 (F := F)).Adm) (t : Fin (cfg0 a).N) : ((cfg0 a).win 2).index t = cc0_transform_2 Facts₀.k0_off1_inb Facts₀.numel1_S1 a.1 (grid0.coords t) := rfl

/-- At the tables, they are the tables' entries at the point. -/
theorem ixAt_0 (hO : Ok (F := F)) (t : Fin (cfgM hO).N) : ((cfgM hO).win 0).index t = ![(lit0 (pt hO t)).toNat, (lit2 (pt hO t)).toNat] := by
  refine (index_0 (adm hO) t).trans ?_
  show cc0_transform_0 Facts₀.k0_off1_inb Facts₀.numel1_S1 (tbl (F := F)) (grid0.coords t) = _
  rw [tf_0, tbl0_apply, tbl2_apply, tixN hO t]
theorem ixAt_1 (hO : Ok (F := F)) (t : Fin (cfgM hO).N) : ((cfgM hO).win 1).index t = ![(lit2 (pt hO t)).toNat, (lit1 (pt hO t)).toNat] := by
  refine (index_1 (adm hO) t).trans ?_
  show cc0_transform_1 Facts₀.k0_off1_inb Facts₀.numel1_S1 (tbl (F := F)) (grid0.coords t) = _
  rw [tf_1, tbl2_apply, tbl1_apply, tixN hO t]
theorem ixAt_2 (hO : Ok (F := F)) (t : Fin (cfgM hO).N) : ((cfgM hO).win 2).index t = ![(lit0 (pt hO t)).toNat, (lit1 (pt hO t)).toNat] := by
  refine (index_2 (adm hO) t).trans ?_
  show cc0_transform_2 Facts₀.k0_off1_inb Facts₀.numel1_S1 (tbl (F := F)) (grid0.coords t) = _
  rw [tf_2, tbl0_apply, tbl1_apply, tixN hO t]

/-- The words the idle condition reads at a point's offset are the tables' entries at the point: the offset is inside
    the table, and is the point's own number. -/
theorem atD0 (hO : Ok (F := F)) (t : Fin (cfgM hO).N) : (tbl (F := F)).atD 0 (k0_off1 (grid0.coords t)) = lit0 (pt hO t) := by
  unfold Pipeline.Prefetch.Contents.atD
  refine (dif_pos (inb1 (grid0.coords t))).trans ?_
  refine (tbl0_apply _).trans ?_
  exact congrArg lit0 (Fin.ext ((Shape.rowMajor_val_one _).trans (off_val t)))
theorem atD2 (hO : Ok (F := F)) (t : Fin (cfgM hO).N) : (tbl (F := F)).atD 2 (k0_off1 (grid0.coords t)) = lit2 (pt hO t) := by
  unfold Pipeline.Prefetch.Contents.atD
  refine (dif_pos (inb1 (grid0.coords t))).trans ?_
  refine (tbl2_apply _).trans ?_
  exact congrArg lit2 (Fin.ext ((Shape.rowMajor_val_one _).trans (off_val t)))

/-- An output window is written back at the last point and wherever its block index, given in closed form, differs
    from the next point's. -/
theorem flush_of_index {G : Pipeline.Grid} (w : Pipeline.Window sig G) (g : Fin G.N → Fin w.shape.rank → Nat) (hg : ∀ t, w.index t = g t) (hout : w.isOut = true) (t : Fin G.N) :
    w.flush t = (decide (t.val + 1 = G.N) || decide (∃ h : t.val + 1 < G.N, g ⟨t.val + 1, h⟩ ≠ g t)) := by
  unfold Pipeline.Window.flush
  rw [hout, Bool.true_and]
  simp only [hg]

/-- The words the body reads at point `t` are the tables' entries at `t`. -/
theorem word0 (hO : Ok (F := F)) (c : Dev nD) (t : Fin (cfgM hO).N) : wordAt (F := F) c (grid0.coords t) tbM0_0 (tbl 0) = lit0 (pt hO t) := by
  unfold wordAt
  refine (View.readAt_apply _ _ _).trans ?_
  show lit0 (S120.rowMajor _) = _
  exact congrArg lit0 (Fin.ext (idx_val t))
theorem word1 (hO : Ok (F := F)) (c : Dev nD) (t : Fin (cfgM hO).N) : wordAt (F := F) c (grid0.coords t) tbM0_1 (tbl 1) = lit1 (pt hO t) := by
  unfold wordAt
  refine (View.readAt_apply _ _ _).trans ?_
  show lit1 (S120.rowMajor _) = _
  exact congrArg lit1 (Fin.ext (idx_val t))
theorem word2 (hO : Ok (F := F)) (c : Dev nD) (t : Fin (cfgM hO).N) : wordAt (F := F) c (grid0.coords t) tbM0_2 (tbl 2) = lit2 (pt hO t) := by
  unfold wordAt
  refine (View.readAt_apply _ _ _).trans ?_
  show lit2 (S120.rowMajor _) = _
  exact congrArg lit2 (Fin.ext (idx_val t))

/-- The body's two conditions at point `t`, decided by the schedule. -/
theorem condReset_iff (hO : Ok (F := F)) (c : Dev nD) (t : Fin (cfgM hO).N) :
    condReset (wordAt (F := F) c (grid0.coords t) tbM0_1 (tbl 1)) (wordAt (F := F) c (grid0.coords t) tbM0_2 (tbl 2)) ↔ resetB (pt hO t) = true := by
  rw [word1 hO c t, word2 hO c t]; exact cond_reset_lit _
theorem condFlush_iff (hO : Ok (F := F)) (c : Dev nD) (t : Fin (cfgM hO).N) :
    condFlush (wordAt (F := F) c (grid0.coords t) tbM0_0 (tbl 0)) (wordAt (F := F) c (grid0.coords t) tbM0_2 (tbl 2)) ↔ flushB (pt hO t) = true := by
  rw [word0 hO c t, word2 hO c t]; exact cond_flush_lit _

/-- The input windows are never idle; the output window is idle exactly where the accumulator is not copied out, and is
    written back exactly where it is. -/
theorem liveAt0_0 (hO : Ok (F := F)) (t : Fin (cfgM hO).N) : (cfgM hO).idle 0 ((cfgM hO).grid.coords t) = false := rfl
theorem liveAt0_1 (hO : Ok (F := F)) (t : Fin (cfgM hO).N) : (cfgM hO).idle 1 ((cfgM hO).grid.coords t) = false := rfl
theorem idle0_2 (hO : Ok (F := F)) (t : Fin (cfgM hO).N) : (cfgM hO).idle 2 ((cfgM hO).grid.coords t) = !flushB (pt hO t) := by
  show (!(k0_cond2 ((tbl (F := F)).atD 0 (k0_off1 (grid0.coords t))) ((tbl (F := F)).atD 2 (k0_off1 (grid0.coords t))) == 1#1)) = _
  rw [atD0 hO t, atD2 hO t, idle_lit]
theorem flush0_2 (hO : Ok (F := F)) (t : Fin (cfgM hO).N) : ((cfgM hO).win 2).flush t = flushB (pt hO t) := by
  rw [flush_of_index ((cfgM hO).win 2) (fun t => ix2L (pt hO t)) (ixAt_2 hO) rfl t]
  exact flush_lit t

/-- The blocks the windows name at point `t`: (i, k) of the left matrix, (k, j) of the right one, (i, j) of the result. -/
theorem index0_0 (hO : Ok (F := F)) (t : Fin (cfgM hO).N) : ((cfgM hO).win 0).index t = ![(lit0 (pt hO t)).toNat, (lit2 (pt hO t)).toNat] :=
  ixAt_0 hO t
theorem index0_1 (hO : Ok (F := F)) (t : Fin (cfgM hO).N) : ((cfgM hO).win 1).index t = ![(lit2 (pt hO t)).toNat, (lit1 (pt hO t)).toNat] :=
  ixAt_1 hO t
theorem index0_2 (hO : Ok (F := F)) (t : Fin (cfgM hO).N) : ((cfgM hO).win 2).index t = ![(lit0 (pt hO t)).toNat, (lit1 (pt hO t)).toNat] :=
  ixAt_2 hO t

end Cert.KernelIdeal.Tri

end
-- ==== Proof.KI.Data.lean ====
/-
  What the accumulator holds after each point, and the pipeline's proof data over it. After point n the accumulator
  is the product of the point's two input blocks added to zero, when the point starts a pair (k = j), or to what the
  point before left, otherwise: a running sum over the pair's contraction blocks so far. The output's staging buffer
  takes that value at the points that copy it out (k = i); the inputs' buffers hold their blocks. Between points the
  region's invariant keeps the accumulator at that running sum, beside the tables' read-only halves.
-/
import proofs.«145046_j66924180406522_1_alg».proof.Proof.KI.Tables

set_option maxRecDepth 16384

noncomputable section

namespace Cert.KernelIdeal.Tri

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Facts₀ Facts

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The accumulator after point `n`. -/
def accAt (hO : Ok (F := F)) (c : Dev nD) : (n : ℕ) → n < (cfgM hO).N → Vec F S1024x1024 .f32
  | 0, hn => k0_pay2 (iblk m hO c 0 ⟨0, hn⟩) (iblk m hO c 1 ⟨0, hn⟩) (k0_pay1 (F := F))
  | n + 1, hn => k0_pay2 (iblk m hO c 0 ⟨n + 1, hn⟩) (iblk m hO c 1 ⟨n + 1, hn⟩)
      (if resetB (pt hO ⟨n + 1, hn⟩) = true then k0_pay1 (F := F) else accAt hO c n (Nat.lt_of_succ_lt hn))

/-- At a point that starts a pair: the product added to zero. -/
theorem accAt_of_reset (hO : Ok (F := F)) (c : Dev nD) (t : Fin (cfgM hO).N) (h : resetB (pt hO t) = true) :
    accAt m hO c t.val t.isLt = k0_pay2 (iblk m hO c 0 t) (iblk m hO c 1 t) (k0_pay1 (F := F)) := by
  obtain ⟨n, hn⟩ := t
  cases n with
  | zero => rfl
  | succ n => rw [accAt]; rw [if_pos h]

/-- At any other point: the product added to what the point before left. -/
theorem accAt_of_not_reset (hO : Ok (F := F)) (c : Dev nD) (t : Fin (cfgM hO).N) (h : resetB (pt hO t) = false) :
    accAt m hO c t.val t.isLt = k0_pay2 (iblk m hO c 0 t) (iblk m hO c 1 t) (accAt m hO c (t.val - 1) (Nat.lt_of_le_of_lt (Nat.sub_le _ _) t.isLt)) := by
  obtain ⟨n, hn⟩ := t
  cases n with
  | zero => exact absurd (show resetB (pt hO ⟨0, hn⟩) = true from resetB_zero) (by rw [h]; decide)
  | succ n => rw [accAt]; rw [if_neg (by rw [h]; decide)]; rfl

/-- The region's invariant before position `n`: before the first point the class's (the accumulator at anything), then
    the accumulator at what the point before left; the generator register at some state; the tables' halves. -/
def PhiS (hO : Ok (F := F)) (c : Dev nD) : (n : ℕ) → n ≤ (cfgM hO).N → sProp 𝕄
  | 0, _ => iprop(Pipeline.ΦA spec0 c ∗ Pipeline.ΦT pre0 (tbl (F := F)) c)
  | n + 1, hn => iprop(iprop(owns (c : Thread nD τ) scM0_0 fullShare (accAt m hO c n hn) ∗ (∃ r, prngReg c r)) ∗ Pipeline.ΦT pre0 (tbl (F := F)) c)

theorem PhiS_zero (hO : Ok (F := F)) (c : Dev nD) (n : ℕ) (h : n ≤ (cfgM hO).N) (hz : n = 0) :
    PhiS m hO c n h = iprop(Pipeline.ΦA spec0 c ∗ Pipeline.ΦT pre0 (tbl (F := F)) c) := by
  subst hz; rfl
theorem PhiS_succ (hO : Ok (F := F)) (c : Dev nD) (n : ℕ) (hn : n < (cfgM hO).N) :
    PhiS m hO c (n + 1) hn = iprop(iprop(owns (c : Thread nD τ) scM0_0 fullShare (accAt m hO c n hn) ∗ (∃ r, prngReg c r)) ∗ Pipeline.ΦT pre0 (tbl (F := F)) c) := rfl
theorem PhiS_pos (hO : Ok (F := F)) (c : Dev nD) (n : ℕ) (h : n ≤ (cfgM hO).N) (hz : n ≠ 0) :
    PhiS m hO c n h = iprop(iprop(owns (c : Thread nD τ) scM0_0 fullShare (accAt m hO c (n - 1) (by omega)) ∗ (∃ r, prngReg c r)) ∗ Pipeline.ΦT pre0 (tbl (F := F)) c) := by
  cases n with
  | zero => exact absurd rfl hz
  | succ n => rfl

/-- The proof data of the one pipeline on core `c`. -/
def dats (hO : Ok (F := F)) (_ : Fin 1) (c : Dev nD) : Dat τ (Elt F) Unit ℕ (UR sig nD τ) ℕ (cfgM hO) c where
  A w := V m c (Pipeline.arrRef spec0 w)
  after w t := match w with
    | ⟨0, _⟩ => iblk m hO c 0 t
    | ⟨1, _⟩ => iblk m hO c 1 t
    | ⟨2, _⟩ => accAt m hO c t.val t.isLt
  Φ t := PhiS m hO c t.val (Nat.le_of_lt_succ t.isLt)
  q _ := fullShare
  owed _ := 0

theorem A_eq (hO : Ok (F := F)) (c : Dev nD) (w : Fin (cfgM hO).W) : (dats m hO 0 c).A w = V m c (Pipeline.arrRef spec0 w) := by
  dsimp only [dats]
theorem PhiS_castSucc (hO : Ok (F := F)) (c : Dev nD) (t : Fin (cfgM hO).N) :
    (dats m hO 0 c).Φ t.castSucc = PhiS m hO c t.val (Nat.le_of_lt t.isLt) := by
  dsimp only [dats]; simp only [Fin.coe_castSucc]
theorem after0_0 (hO : Ok (F := F)) (c : Dev nD) (t : Fin (cfgM hO).N) : (dats m hO 0 c).after 0 t = iblk m hO c 0 t := by dsimp only [dats]; try rfl
theorem after0_1 (hO : Ok (F := F)) (c : Dev nD) (t : Fin (cfgM hO).N) : (dats m hO 0 c).after 1 t = iblk m hO c 1 t := by dsimp only [dats]; try rfl
theorem after0_2 (hO : Ok (F := F)) (c : Dev nD) (t : Fin (cfgM hO).N) : (dats m hO 0 c).after 2 t = accAt m hO c t.val t.isLt := by dsimp only [dats]; try rfl
theorem before0_0 (hO : Ok (F := F)) (c : Dev nD) (t : Fin (cfgM hO).N) (d) : (dats m hO 0 c).before 0 t d = iblk m hO c 0 t :=
  before0_0_of m hO (dats m hO 0 c) (A_eq m hO c 0) (after0_0 m hO c) t d
theorem before0_1 (hO : Ok (F := F)) (c : Dev nD) (t : Fin (cfgM hO).N) (d) : (dats m hO 0 c).before 1 t d = iblk m hO c 1 t :=
  before0_1_of m hO (dats m hO 0 c) (A_eq m hO c 1) (after0_1 m hO c) t d

end Cert.KernelIdeal.Tri

end
-- ==== Proof.KI.Pieces.lean ====
/-
  The pieces a point's run leaves, read back as values. Each store of the body writes a whole 1024 × 1024 block, so
  after the run the accumulator reads as the value of its last store, whatever it held before: the product of the two
  input blocks added to zero (when the point zeroes it first) or to the accumulator's previous value; and at a point
  that copies the accumulator out, the output's buffer reads as that same value.
-/
import proofs.«145046_j66924180406522_1_alg».proof.Proof.KI.Runs
import Idealize.ShloMosaic.Lib.Pipeline.Value

set_option maxRecDepth 16384

noncomputable section

namespace Cert.KernelIdeal.Tri

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Facts₀ Facts

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The zero offsets of a whole-block store, spelt as the constant function. -/
private theorem hz : (![0, 0] : Fin 2 → ℕ) = fun _ => 0 := by
  funext a; fin_cases a <;> rfl

/-- After a list of writes whose LAST is a store of the whole block, the buffer reads as that store's value, whatever
    the earlier writes and the prior contents were. -/
private theorem read_top (M : Memref sig .tc .vmem S1024x1024 .f32) (f : M.view.ty.Contents (Elt F))
    (inb : ∀ a, (![0, 0] : Fin 2 → ℕ) a + S1024x1024.size a ≤ S1024x1024.size a)
    (w : S1024x1024.Idx → Elt F .f32) (L : List (View.Piece (Elt F) S1024x1024 .f32)) :
    M.view.read (Elt F) (M.view.writes (Elt F) f ((⟨Rect.unit ![0, 0] S1024x1024.size inb, w⟩ : View.Piece (Elt F) S1024x1024 .f32) :: L)) = w := by
  rw [View.read_writes_eq_canon _ _ _ (fun y => ⟨_, List.mem_cons_self, View.mem_set_unit_zero hz inb y⟩),
    View.canon_cons_unit_zero (S := S1024x1024) hz]

/-- A load of the whole block after such a list of writes reads the last store's value. -/
private theorem readCov_top (M : Memref sig .tc .vmem S1024x1024 .f32)
    (inb inb' : ∀ a, (![0, 0] : Fin 2 → ℕ) a + S1024x1024.size a ≤ S1024x1024.size a)
    (w : S1024x1024.Idx → Elt F .f32) (L : List (View.Piece (Elt F) S1024x1024 .f32)) :
    M.view.readCov ((⟨Rect.unit ![0, 0] S1024x1024.size inb, w⟩ : View.Piece (Elt F) S1024x1024 .f32) :: L)
        (Rect.unit ![0, 0] S1024x1024.size inb').toLoadRect = w := by
  rw [View.readCov_eq_canon_ld _ _ _ (fun y => ⟨_, List.mem_cons_self, View.mem_set_unit_zero hz inb y⟩),
    View.canon_cons_unit_zero (S := S1024x1024) hz, View.ld_unit_zero (S := S1024x1024) hz]

/-- A load of the whole block of a whole buffer holding `X` reads `X`. -/
private theorem readAt_whole (M : Memref sig .tc .vmem S1024x1024 .f32) (h : M.IsWhole)
    (inb : ∀ a, (![0, 0] : Fin 2 → ℕ) a + S1024x1024.size a ≤ S1024x1024.size a) (X : Vec F S1024x1024 .f32) :
    M.view.readAt (Elt F) (Rect.unit ![0, 0] S1024x1024.size inb).toLoadRect (h.unread X) = X := by
  rw [View.readAt_eq_ld, h.read_unread, View.ld_unit_zero (S := S1024x1024) hz]

/-- What the accumulator reads after the run (zeroed first: true; copied out: true), over whatever it held. -/
theorem scr_TT (c : Dev nD) (i : grid0.Coords) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole)
    (x0 x1 : Vec F S1024x1024 .f32) (xt0 : TbBuf0 (F := F) c tbM0_0) (xt1 : TbBuf0 (F := F) c tbM0_1) (xt2 : TbBuf0 (F := F) c tbM0_2)
    (hc1 : condReset (wordAt c i tbM0_1 xt1) (wordAt c i tbM0_2 xt2)) (hc2 : condFlush (wordAt c i tbM0_0 xt0) (wordAt c i tbM0_2 xt2)) (f : arg7.view.ty.Contents (Elt F)) :
    arg7.view.read (Elt F) (arg7.view.writes (Elt F) f (kernelRun0_TT c i arg4 harg4 arg5 harg5 arg6 harg6 arg7 harg7 x0 x1 xt0 xt1 xt2 hc1 hc2).2.1) = k0_pay2 x0 x1 (k0_pay1 (F := F)) := by
  unfold kernelRun0_TT
  dsimp only
  sl_unfold_words
  rw [read_top, readCov_top, readAt_whole, readAt_whole]

/-- What the output's buffer reads after the run: the accumulator's value, over whatever it held. -/
theorem out_TT (c : Dev nD) (i : grid0.Coords) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole)
    (x0 x1 : Vec F S1024x1024 .f32) (xt0 : TbBuf0 (F := F) c tbM0_0) (xt1 : TbBuf0 (F := F) c tbM0_1) (xt2 : TbBuf0 (F := F) c tbM0_2)
    (hc1 : condReset (wordAt c i tbM0_1 xt1) (wordAt c i tbM0_2 xt2)) (hc2 : condFlush (wordAt c i tbM0_0 xt0) (wordAt c i tbM0_2 xt2)) (f : arg6.view.ty.Contents (Elt F)) :
    arg6.view.read (Elt F) (arg6.view.writes (Elt F) f (kernelRun0_TT c i arg4 harg4 arg5 harg5 arg6 harg6 arg7 harg7 x0 x1 xt0 xt1 xt2 hc1 hc2).1) = k0_pay2 x0 x1 (k0_pay1 (F := F)) := by
  unfold kernelRun0_TT
  dsimp only
  sl_unfold_words
  rw [read_top, readCov_top, readCov_top, readAt_whole, readAt_whole]

/-- What the accumulator reads after the run (zeroed first: true; copied out: false), over whatever it held. -/
theorem scr_TF (c : Dev nD) (i : grid0.Coords) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole)
    (x0 x1 : Vec F S1024x1024 .f32) (xt0 : TbBuf0 (F := F) c tbM0_0) (xt1 : TbBuf0 (F := F) c tbM0_1) (xt2 : TbBuf0 (F := F) c tbM0_2)
    (hc1 : condReset (wordAt c i tbM0_1 xt1) (wordAt c i tbM0_2 xt2)) (hc2 : ¬ condFlush (wordAt c i tbM0_0 xt0) (wordAt c i tbM0_2 xt2)) (f : arg7.view.ty.Contents (Elt F)) :
    arg7.view.read (Elt F) (arg7.view.writes (Elt F) f (kernelRun0_TF c i arg4 harg4 arg5 harg5 arg6 harg6 arg7 harg7 x0 x1 xt0 xt1 xt2 hc1 hc2).1) = k0_pay2 x0 x1 (k0_pay1 (F := F)) := by
  unfold kernelRun0_TF
  dsimp only
  sl_unfold_words
  rw [read_top, readCov_top, readAt_whole, readAt_whole]

/-- What the accumulator reads after the run (zeroed first: false; copied out: true), over whatever it held. -/
theorem scr_FT (c : Dev nD) (i : grid0.Coords) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole)
    (x0 x1 : Vec F S1024x1024 .f32) (xs0 : Vec F S1024x1024 .f32) (xt0 : TbBuf0 (F := F) c tbM0_0) (xt1 : TbBuf0 (F := F) c tbM0_1) (xt2 : TbBuf0 (F := F) c tbM0_2)
    (hc1 : ¬ condReset (wordAt c i tbM0_1 xt1) (wordAt c i tbM0_2 xt2)) (hc2 : condFlush (wordAt c i tbM0_0 xt0) (wordAt c i tbM0_2 xt2)) (f : arg7.view.ty.Contents (Elt F)) :
    arg7.view.read (Elt F) (arg7.view.writes (Elt F) f (kernelRun0_FT c i arg4 harg4 arg5 harg5 arg6 harg6 arg7 harg7 x0 x1 xs0 xt0 xt1 xt2 hc1 hc2).2.1) = k0_pay2 x0 x1 xs0 := by
  unfold kernelRun0_FT
  dsimp only
  sl_unfold_words
  rw [read_top, readAt_whole, readAt_whole, readAt_whole]

/-- What the output's buffer reads after the run: the accumulator's value, over whatever it held. -/
theorem out_FT (c : Dev nD) (i : grid0.Coords) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole)
    (x0 x1 : Vec F S1024x1024 .f32) (xs0 : Vec F S1024x1024 .f32) (xt0 : TbBuf0 (F := F) c tbM0_0) (xt1 : TbBuf0 (F := F) c tbM0_1) (xt2 : TbBuf0 (F := F) c tbM0_2)
    (hc1 : ¬ condReset (wordAt c i tbM0_1 xt1) (wordAt c i tbM0_2 xt2)) (hc2 : condFlush (wordAt c i tbM0_0 xt0) (wordAt c i tbM0_2 xt2)) (f : arg6.view.ty.Contents (Elt F)) :
    arg6.view.read (Elt F) (arg6.view.writes (Elt F) f (kernelRun0_FT c i arg4 harg4 arg5 harg5 arg6 harg6 arg7 harg7 x0 x1 xs0 xt0 xt1 xt2 hc1 hc2).1) = k0_pay2 x0 x1 xs0 := by
  unfold kernelRun0_FT
  dsimp only
  sl_unfold_words
  rw [read_top, readCov_top, readAt_whole, readAt_whole, readAt_whole]

/-- What the accumulator reads after the run (zeroed first: false; copied out: false), over whatever it held. -/
theorem scr_FF (c : Dev nD) (i : grid0.Coords) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole)
    (x0 x1 : Vec F S1024x1024 .f32) (xs0 : Vec F S1024x1024 .f32) (xt0 : TbBuf0 (F := F) c tbM0_0) (xt1 : TbBuf0 (F := F) c tbM0_1) (xt2 : TbBuf0 (F := F) c tbM0_2)
    (hc1 : ¬ condReset (wordAt c i tbM0_1 xt1) (wordAt c i tbM0_2 xt2)) (hc2 : ¬ condFlush (wordAt c i tbM0_0 xt0) (wordAt c i tbM0_2 xt2)) (f : arg7.view.ty.Contents (Elt F)) :
    arg7.view.read (Elt F) (arg7.view.writes (Elt F) f (kernelRun0_FF c i arg4 harg4 arg5 harg5 arg6 harg6 arg7 harg7 x0 x1 xs0 xt0 xt1 xt2 hc1 hc2).1) = k0_pay2 x0 x1 xs0 := by
  unfold kernelRun0_FF
  dsimp only
  sl_unfold_words
  rw [read_top, readAt_whole, readAt_whole, readAt_whole]

end Cert.KernelIdeal.Tri

end
-- ==== Proof.KI.Frame.lean ====
/-
  The frame of the lower-triangular block product: the body obligation at a generic point, and the run of the whole
  program. At every point the two input buffers hold their blocks; the point's two conditions, read off the schedule,
  say which of the four runs of the body applies; the region's invariant hands the body the accumulator at what the
  point before left (at anything before a point that zeroes it first) and takes it back at this point's running sum;
  the output's buffer is left as it was found where the accumulator is not copied out. Around the region, the
  constants that fill the tables run before it and the triangular mask after it.
-/
import proofs.«145046_j66924180406522_1_alg».proof.Proof.KI.Data
import proofs.«145046_j66924180406522_1_alg».proof.Proof.KI.Pieces

set_option maxRecDepth 16384

noncomputable section

namespace Cert.KernelIdeal.Tri

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Facts₀ Facts

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, the windows one by one, -/
def bodyPre (hO : Ok (F := F)) (c : Dev nD) (t : Fin (cfgM hO).N) : sProp 𝕄 :=
  iprop((dats m hO 0 c).Φ t.castSucc ∗ (dats m hO 0 c).owesAt () t.castSucc
    ∗ (∃ d, owns (c : Thread nD τ) (ms0_0 hO t) fullShare ((dats m hO 0 c).before 0 t d))
    ∗ (∃ d, owns (c : Thread nD τ) (ms0_1 hO t) fullShare ((dats m hO 0 c).before 1 t d))
    ∗ (∃ d, owns (c : Thread nD τ) (ms0_2 hO t) fullShare ((dats m hO 0 c).before 2 t d)))

/-- and what it returns. -/
def bodyPost (hO : Ok (F := F)) (c : Dev nD) (t : Fin (cfgM hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t)

set_option maxHeartbeats 4800000 in
/-- The body at any point. -/
theorem sound_body (hO : Ok (F := F)) (c : Dev nD) (t : Fin (cfgM hO).N) :
    bodyPre m hO c t ⊢ wp frame (wpE (defs₀ (F := F)) Variants.none c none) Set.univ (bodyAt0 (adm hO) t) (fun _ => bodyPost m hO c t) := by
  unfold bodyPre bodyPost bodyAt0
  simp only [before0_0, before0_1]
  rw [show (dats m hO 0 c).owesAt () t.succ = (dats m hO 0 c).owesAt () t.castSucc from rfl]
  rw [show (dats m hO 0 c).Φ t.succ = PhiS m hO c (t.val + 1) t.isLt from rfl, PhiS_succ]
  rw [show (dats m hO 0 c).leavesExact 0 t = owns (c : Thread nD τ) (ms0_0 hO t) fullShare ((dats m hO 0 c).after 0 t) from by
    unfold Dat.leavesExact; rw [liveAt0_0 hO t]; rfl, after0_0]
  rw [show (dats m hO 0 c).leavesExact 1 t = owns (c : Thread nD τ) (ms0_1 hO t) fullShare ((dats m hO 0 c).after 1 t) from by
    unfold Dat.leavesExact; rw [liveAt0_1 hO t]; rfl, after0_1]
  cases hr : resetB (pt hO t)
  · cases hf : flushB (pt hO t)
    · -- the pair goes on: the accumulator grows, the output's buffer is left alone
      have hc1 : ¬ condReset (wordAt (F := F) c (grid0.coords t) tbM0_1 (tbl 1)) (wordAt (F := F) c (grid0.coords t) tbM0_2 (tbl 2)) := fun h => absurd ((condReset_iff hO c t).mp h) (by rw [hr]; decide)
      have hc2 : ¬ condFlush (wordAt (F := F) c (grid0.coords t) tbM0_0 (tbl 0)) (wordAt (F := F) c (grid0.coords t) tbM0_2 (tbl 2)) := fun h => absurd ((condFlush_iff hO c t).mp h) (by rw [hf]; decide)
      rw [Dat.leavesExact_idle (dats m hO 0 c) 2 t (by rw [idle0_2 hO t, hf]; rfl) (by rw [flush0_2 hO t, hf])]
      rw [accAt_of_not_reset m hO c t hr]
      have hz : t.val ≠ 0 := fun h => by
        have e : pt hO t = ⟨0, by decide⟩ := Fin.ext h
        rw [e, resetB_zero] at hr; exact absurd hr (by decide)
      · rw [PhiS_castSucc m hO c t, PhiS_pos m hO c _ _ hz, PhiT0_eq]
        iintro ⟨⟨⟨HS0, Hg⟩, HT0, HT1, HT2⟩, Ho, ⟨%d0, H0⟩, ⟨%d1, H1⟩, ⟨%d2, H2⟩⟩
        iapply ((kernelRun0_FF c (grid0.coords t) (ms0_0 hO t) (hs0_0 hO t) (ms0_1 hO t) (hs0_1 hO t) (ms0_2 hO t) (hs0_2 hO t) scM0_0 (Memref.isWhole_whole _) (iblk m hO c 0 t) (iblk m hO c 1 t) (accAt m hO c (t.val - 1) (Nat.lt_of_le_of_lt (Nat.sub_le _ _) t.isLt)) (tbl 0) (tbl 1) (tbl 2) hc1 hc2).2 ((dats m hO 0 c).before 2 t d2) Set.univ _)
        isplitl [H0]; · iexact H0
        isplitl [H1]; · iexact H1
        isplitl [H2]; · iexact H2
        isplitl [HS0]; · iexact HS0
        isplitl [HT0]; · iexact HT0
        isplitl [HT1]; · iexact HT1
        isplitl [HT2]; · iexact HT2
        iintro ⟨H0, H1, H2, ⟨%es0, HS0⟩, HT0, HT1, HT2⟩
        isplitl [HS0 Hg HT0 HT1 HT2]
        · isplitl [HS0 Hg]
          · isplitl [HS0]
            · unfold owns; iexists _; isplitr
              swap; · iexact HS0
              ipureintro; exact scr_FF c (grid0.coords t) (ms0_0 hO t) (hs0_0 hO t) (ms0_1 hO t) (hs0_1 hO t) (ms0_2 hO t) (hs0_2 hO t) scM0_0 (Memref.isWhole_whole _) (iblk m hO c 0 t) (iblk m hO c 1 t) (accAt m hO c (t.val - 1) (Nat.lt_of_le_of_lt (Nat.sub_le _ _) t.isLt)) (tbl 0) (tbl 1) (tbl 2) hc1 hc2 _
            iexact Hg
          isplitl [HT0]; · iexact HT0
          isplitl [HT1]; · iexact HT1
          iexact HT2
        isplitl [Ho]; · iexact Ho
        isplitl [H0]; · iexact H0
        isplitl [H1]; · iexact H1
        iexists _; iexact H2
    · -- the pair's last point: the accumulator grows and is copied out
      have hc1 : ¬ condReset (wordAt (F := F) c (grid0.coords t) tbM0_1 (tbl 1)) (wordAt (F := F) c (grid0.coords t) tbM0_2 (tbl 2)) := fun h => absurd ((condReset_iff hO c t).mp h) (by rw [hr]; decide)
      have hc2 := (condFlush_iff hO c t).mpr hf
      rw [show (dats m hO 0 c).leavesExact 2 t = owns (c : Thread nD τ) (ms0_2 hO t) fullShare ((dats m hO 0 c).after 2 t) from by
        unfold Dat.leavesExact; rw [idle0_2 hO t, hf]; rfl, after0_2]
      rw [accAt_of_not_reset m hO c t hr]
      have hz : t.val ≠ 0 := fun h => by
        have e : pt hO t = ⟨0, by decide⟩ := Fin.ext h
        rw [e, resetB_zero] at hr; exact absurd hr (by decide)
      · rw [PhiS_castSucc m hO c t, PhiS_pos m hO c _ _ hz, PhiT0_eq]
        iintro ⟨⟨⟨HS0, Hg⟩, HT0, HT1, HT2⟩, Ho, ⟨%d0, H0⟩, ⟨%d1, H1⟩, ⟨%d2, H2⟩⟩
        iapply ((kernelRun0_FT c (grid0.coords t) (ms0_0 hO t) (hs0_0 hO t) (ms0_1 hO t) (hs0_1 hO t) (ms0_2 hO t) (hs0_2 hO t) scM0_0 (Memref.isWhole_whole _) (iblk m hO c 0 t) (iblk m hO c 1 t) (accAt m hO c (t.val - 1) (Nat.lt_of_le_of_lt (Nat.sub_le _ _) t.isLt)) (tbl 0) (tbl 1) (tbl 2) hc1 hc2).2.2 Set.univ _)
        isplitl [H0]; · iexact H0
        isplitl [H1]; · iexact H1
        isplitl [H2]; · iexists _; iexact H2
        isplitl [HS0]; · iexact HS0
        isplitl [HT0]; · iexact HT0
        isplitl [HT1]; · iexact HT1
        isplitl [HT2]; · iexact HT2
        iintro ⟨H0, H1, ⟨%e2, H2⟩, ⟨%es0, HS0⟩, HT0, HT1, HT2⟩
        isplitl [HS0 Hg HT0 HT1 HT2]
        · isplitl [HS0 Hg]
          · isplitl [HS0]
            · unfold owns; iexists _; isplitr
              swap; · iexact HS0
              ipureintro; exact scr_FT c (grid0.coords t) (ms0_0 hO t) (hs0_0 hO t) (ms0_1 hO t) (hs0_1 hO t) (ms0_2 hO t) (hs0_2 hO t) scM0_0 (Memref.isWhole_whole _) (iblk m hO c 0 t) (iblk m hO c 1 t) (accAt m hO c (t.val - 1) (Nat.lt_of_le_of_lt (Nat.sub_le _ _) t.isLt)) (tbl 0) (tbl 1) (tbl 2) hc1 hc2 _
            iexact Hg
          isplitl [HT0]; · iexact HT0
          isplitl [HT1]; · iexact HT1
          iexact HT2
        isplitl [Ho]; · iexact Ho
        isplitl [H0]; · iexact H0
        isplitl [H1]; · iexact H1
        unfold owns; iexists _; isplitr
        swap; · iexact H2
        ipureintro; exact out_FT c (grid0.coords t) (ms0_0 hO t) (hs0_0 hO t) (ms0_1 hO t) (hs0_1 hO t) (ms0_2 hO t) (hs0_2 hO t) scM0_0 (Memref.isWhole_whole _) (iblk m hO c 0 t) (iblk m hO c 1 t) (accAt m hO c (t.val - 1) (Nat.lt_of_le_of_lt (Nat.sub_le _ _) t.isLt)) (tbl 0) (tbl 1) (tbl 2) hc1 hc2 _
  · cases hf : flushB (pt hO t)
    · -- the pair's first point: the accumulator starts from zero
      have hc1 := (condReset_iff hO c t).mpr hr
      have hc2 : ¬ condFlush (wordAt (F := F) c (grid0.coords t) tbM0_0 (tbl 0)) (wordAt (F := F) c (grid0.coords t) tbM0_2 (tbl 2)) := fun h => absurd ((condFlush_iff hO c t).mp h) (by rw [hf]; decide)
      rw [Dat.leavesExact_idle (dats m hO 0 c) 2 t (by rw [idle0_2 hO t, hf]; rfl) (by rw [flush0_2 hO t, hf])]
      rw [accAt_of_reset m hO c t hr]
      by_cases hz : t.val = 0
      · rw [PhiS_castSucc m hO c t, PhiS_zero m hO c _ _ hz, PhiA0_eq, PhiT0_eq]
        iintro ⟨⟨⟨HS0, Hg⟩, HT0, HT1, HT2⟩, Ho, ⟨%d0, H0⟩, ⟨%d1, H1⟩, ⟨%d2, H2⟩⟩
        iapply ((kernelRun0_TF c (grid0.coords t) (ms0_0 hO t) (hs0_0 hO t) (ms0_1 hO t) (hs0_1 hO t) (ms0_2 hO t) (hs0_2 hO t) scM0_0 (Memref.isWhole_whole _) (iblk m hO c 0 t) (iblk m hO c 1 t) (tbl 0) (tbl 1) (tbl 2) hc1 hc2).2 ((dats m hO 0 c).before 2 t d2) Set.univ _)
        isplitl [H0]; · iexact H0
        isplitl [H1]; · iexact H1
        isplitl [H2]; · iexact H2
        isplitl [HS0]; · iexact HS0
        isplitl [HT0]; · iexact HT0
        isplitl [HT1]; · iexact HT1
        isplitl [HT2]; · iexact HT2
        iintro ⟨H0, H1, H2, ⟨%es0, HS0⟩, HT0, HT1, HT2⟩
        isplitl [HS0 Hg HT0 HT1 HT2]
        · isplitl [HS0 Hg]
          · isplitl [HS0]
            · unfold owns; iexists _; isplitr
              swap; · iexact HS0
              ipureintro; exact scr_TF c (grid0.coords t) (ms0_0 hO t) (hs0_0 hO t) (ms0_1 hO t) (hs0_1 hO t) (ms0_2 hO t) (hs0_2 hO t) scM0_0 (Memref.isWhole_whole _) (iblk m hO c 0 t) (iblk m hO c 1 t) (tbl 0) (tbl 1) (tbl 2) hc1 hc2 _
            iexact Hg
          isplitl [HT0]; · iexact HT0
          isplitl [HT1]; · iexact HT1
          iexact HT2
        isplitl [Ho]; · iexact Ho
        isplitl [H0]; · iexact H0
        isplitl [H1]; · iexact H1
        iexists _; iexact H2
      · rw [PhiS_castSucc m hO c t, PhiS_pos m hO c _ _ hz, PhiT0_eq]
        iintro ⟨⟨⟨HS0, Hg⟩, HT0, HT1, HT2⟩, Ho, ⟨%d0, H0⟩, ⟨%d1, H1⟩, ⟨%d2, H2⟩⟩
        iapply ((kernelRun0_TF c (grid0.coords t) (ms0_0 hO t) (hs0_0 hO t) (ms0_1 hO t) (hs0_1 hO t) (ms0_2 hO t) (hs0_2 hO t) scM0_0 (Memref.isWhole_whole _) (iblk m hO c 0 t) (iblk m hO c 1 t) (tbl 0) (tbl 1) (tbl 2) hc1 hc2).2 ((dats m hO 0 c).before 2 t d2) Set.univ _)
        isplitl [H0]; · iexact H0
        isplitl [H1]; · iexact H1
        isplitl [H2]; · iexact H2
        isplitl [HS0]; · iexists _; iexact HS0
        isplitl [HT0]; · iexact HT0
        isplitl [HT1]; · iexact HT1
        isplitl [HT2]; · iexact HT2
        iintro ⟨H0, H1, H2, ⟨%es0, HS0⟩, HT0, HT1, HT2⟩
        isplitl [HS0 Hg HT0 HT1 HT2]
        · isplitl [HS0 Hg]
          · isplitl [HS0]
            · unfold owns; iexists _; isplitr
              swap; · iexact HS0
              ipureintro; exact scr_TF c (grid0.coords t) (ms0_0 hO t) (hs0_0 hO t) (ms0_1 hO t) (hs0_1 hO t) (ms0_2 hO t) (hs0_2 hO t) scM0_0 (Memref.isWhole_whole _) (iblk m hO c 0 t) (iblk m hO c 1 t) (tbl 0) (tbl 1) (tbl 2) hc1 hc2 _
            iexact Hg
          isplitl [HT0]; · iexact HT0
          isplitl [HT1]; · iexact HT1
          iexact HT2
        isplitl [Ho]; · iexact Ho
        isplitl [H0]; · iexact H0
        isplitl [H1]; · iexact H1
        iexists _; iexact H2
    · -- a pair of one point (a diagonal block): from zero, and copied out
      have hc1 := (condReset_iff hO c t).mpr hr
      have hc2 := (condFlush_iff hO c t).mpr hf
      rw [show (dats m hO 0 c).leavesExact 2 t = owns (c : Thread nD τ) (ms0_2 hO t) fullShare ((dats m hO 0 c).after 2 t) from by
        unfold Dat.leavesExact; rw [idle0_2 hO t, hf]; rfl, after0_2]
      rw [accAt_of_reset m hO c t hr]
      by_cases hz : t.val = 0
      · rw [PhiS_castSucc m hO c t, PhiS_zero m hO c _ _ hz, PhiA0_eq, PhiT0_eq]
        iintro ⟨⟨⟨HS0, Hg⟩, HT0, HT1, HT2⟩, Ho, ⟨%d0, H0⟩, ⟨%d1, H1⟩, ⟨%d2, H2⟩⟩
        iapply ((kernelRun0_TT c (grid0.coords t) (ms0_0 hO t) (hs0_0 hO t) (ms0_1 hO t) (hs0_1 hO t) (ms0_2 hO t) (hs0_2 hO t) scM0_0 (Memref.isWhole_whole _) (iblk m hO c 0 t) (iblk m hO c 1 t) (tbl 0) (tbl 1) (tbl 2) hc1 hc2).2.2 Set.univ _)
        isplitl [H0]; · iexact H0
        isplitl [H1]; · iexact H1
        isplitl [H2]; · iexists _; iexact H2
        isplitl [HS0]; · iexact HS0
        isplitl [HT0]; · iexact HT0
        isplitl [HT1]; · iexact HT1
        isplitl [HT2]; · iexact HT2
        iintro ⟨H0, H1, ⟨%e2, H2⟩, ⟨%es0, HS0⟩, HT0, HT1, HT2⟩
        isplitl [HS0 Hg HT0 HT1 HT2]
        · isplitl [HS0 Hg]
          · isplitl [HS0]
            · unfold owns; iexists _; isplitr
              swap; · iexact HS0
              ipureintro; exact scr_TT c (grid0.coords t) (ms0_0 hO t) (hs0_0 hO t) (ms0_1 hO t) (hs0_1 hO t) (ms0_2 hO t) (hs0_2 hO t) scM0_0 (Memref.isWhole_whole _) (iblk m hO c 0 t) (iblk m hO c 1 t) (tbl 0) (tbl 1) (tbl 2) hc1 hc2 _
            iexact Hg
          isplitl [HT0]; · iexact HT0
          isplitl [HT1]; · iexact HT1
          iexact HT2
        isplitl [Ho]; · iexact Ho
        isplitl [H0]; · iexact H0
        isplitl [H1]; · iexact H1
        unfold owns; iexists _; isplitr
        swap; · iexact H2
        ipureintro; exact out_TT c (grid0.coords t) (ms0_0 hO t) (hs0_0 hO t) (ms0_1 hO t) (hs0_1 hO t) (ms0_2 hO t) (hs0_2 hO t) scM0_0 (Memref.isWhole_whole _) (iblk m hO c 0 t) (iblk m hO c 1 t) (tbl 0) (tbl 1) (tbl 2) hc1 hc2 _
      · rw [PhiS_castSucc m hO c t, PhiS_pos m hO c _ _ hz, PhiT0_eq]
        iintro ⟨⟨⟨HS0, Hg⟩, HT0, HT1, HT2⟩, Ho, ⟨%d0, H0⟩, ⟨%d1, H1⟩, ⟨%d2, H2⟩⟩
        iapply ((kernelRun0_TT c (grid0.coords t) (ms0_0 hO t) (hs0_0 hO t) (ms0_1 hO t) (hs0_1 hO t) (ms0_2 hO t) (hs0_2 hO t) scM0_0 (Memref.isWhole_whole _) (iblk m hO c 0 t) (iblk m hO c 1 t) (tbl 0) (tbl 1) (tbl 2) hc1 hc2).2.2 Set.univ _)
        isplitl [H0]; · iexact H0
        isplitl [H1]; · iexact H1
        isplitl [H2]; · iexists _; iexact H2
        isplitl [HS0]; · iexists _; iexact HS0
        isplitl [HT0]; · iexact HT0
        isplitl [HT1]; · iexact HT1
        isplitl [HT2]; · iexact HT2
        iintro ⟨H0, H1, ⟨%e2, H2⟩, ⟨%es0, HS0⟩, HT0, HT1, HT2⟩
        isplitl [HS0 Hg HT0 HT1 HT2]
        · isplitl [HS0 Hg]
          · isplitl [HS0]
            · unfold owns; iexists _; isplitr
              swap; · iexact HS0
              ipureintro; exact scr_TT c (grid0.coords t) (ms0_0 hO t) (hs0_0 hO t) (ms0_1 hO t) (hs0_1 hO t) (ms0_2 hO t) (hs0_2 hO t) scM0_0 (Memref.isWhole_whole _) (iblk m hO c 0 t) (iblk m hO c 1 t) (tbl 0) (tbl 1) (tbl 2) hc1 hc2 _
            iexact Hg
          isplitl [HT0]; · iexact HT0
          isplitl [HT1]; · iexact HT1
          iexact HT2
        isplitl [Ho]; · iexact Ho
        isplitl [H0]; · iexact H0
        isplitl [H1]; · iexact H1
        unfold owns; iexists _; isplitr
        swap; · iexact H2
        ipureintro; exact out_TT c (grid0.coords t) (ms0_0 hO t) (hs0_0 hO t) (ms0_1 hO t) (hs0_1 hO t) (ms0_2 hO t) (hs0_2 hO t) scM0_0 (Memref.isWhole_whole _) (iblk m hO c 0 t) (iblk m hO c 1 t) (tbl 0) (tbl 1) (tbl 2) hc1 hc2 _

/-- The library's body obligation, at every point. -/
theorem body_obligation (hO : Ok (F := F)) (c : Dev nD) : BodyObligation (dats (F := F) m hO 0 c) (defs₀ (F := F)) Variants.none () Set.univ := fun t => by
  rw [bigSep_W0, bigSep_W0]
  exact sound_body m hO c t

/-- What the launch hands the region is the invariant before the first point. -/
theorem hin (hO : Ok (F := F)) (c : Dev nD) : iprop(Pipeline.ΦA spec0 c ∗ Pipeline.ΦT pre0 (tbl (F := F)) c) ⊢ (dats m hO 0 c).Φ 0 := by
  rw [show (dats m hO 0 c).Φ 0 = PhiS m hO c 0 (Nat.zero_le _) from rfl, PhiS_zero m hO c 0 _ rfl]
  try exact Idealize.SL.BI.Entails.refl _

/-- After the last point the invariant gives the class's back: the accumulator's contents are forgotten, the tables'
    halves let go. -/
theorem hout (hO : Ok (F := F)) (c : Dev nD) : (dats m hO 0 c).Φ (Fin.last (cfgM hO).N) ⊢ Pipeline.ΦA spec0 c := by
  rw [show (dats m hO 0 c).Φ (Fin.last (cfgM hO).N) = PhiS m hO c (Fin.last (cfgM hO).N).val (Nat.le_of_lt_succ (Fin.last (cfgM hO).N).isLt) from rfl,
    PhiS_pos m hO c _ _ (by rw [Fin.val_last]; have : (cfgM hO).N = 120 := N_M hO; omega), PhiA0_eq]
  iintro ⟨⟨HS0, Hg⟩, -⟩
  isplitl [HS0]
  · iexists _; iexact HS0
  iexact Hg

/-! ## The run and the frame -/

set_option backward.isDefEq.respectTransparency.types false in
/-- Every weakly fair execution of @main terminates, and every final state has every array of the pipeline at what the
    library computes from the proof data and every other unscoped buffer as the mask's operations leave it. -/
theorem run_main (hO : Ok (F := F)) : θ_run defs (onTc (τ := τ) (main (F := F))) (s₀ m ρ)
    (Pipeline.FramePost (Pipeline.pin pcfgs fun _ => adm hO) (dats m hO) 0 (Pipeline.afterTail pcfgs (fun _ => adm hO) (dats m hO) 0 (V0 m) [hostOps1])) :=
  Pipeline.θ_run_frameP_around_track pcfgs (fun _ => adm hO) (dats m hO) (0 : Fin 1) launch0 defs₀ Variants.none m ρ main
    (hbody := fun c => (body_obligation m hO c).loose) (hshare := fun c => (dats m hO 0 c).share_full fun _ => rfl)
    (howed := fun _ _ => rfl) (V₀ := V0 m) (opss := [hostOps1]) (hsub := sfx_sub) (hfresh := sfx_fresh) (hkeep := sfx_keeps)
    (hmain := hmain m Variants.none) (hA := A_eq m hO) (hpf := V_pre m) (hin := hin m hO) (hout := hout m hO)

/-- The frame: the program runs to the end, faults nowhere, and leaves its two arguments unchanged. -/
theorem frame (hO : Ok (F := F)) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ hO (dats m hO) (A_eq m hO) (run_main m ρ hO)

end Cert.KernelIdeal.Tri

end
-- ==== Proof.TriSum.lean ====
/-
  Two lower-triangular matrices: every entry strictly above the diagonal is zero. In the product's entry (r, c)
  the term at contraction index t is A[r,t] · B[t,c]; it vanishes when t > r (the left factor is zero) and when
  t < c (the right factor is zero). Cut the 8192 contraction indices into 8 blocks of 1024: a block that lies
  wholly after row r's block, or wholly before column c's block, contributes nothing, so the full contraction is
  the sum over the blocks between the column's block and the row's block. On the extended reals the only facts used
  are 0 · x = 0 = x · 0 and that finite sums may be regrouped: no finiteness is needed.
-/
import Mathlib.Data.EReal.Operations
import Mathlib.Algebra.BigOperators.Fin
import Mathlib.Algebra.BigOperators.Ring.Finset

namespace Cert.Tri

/-- Contraction index 1024·k + kk: position kk inside block k. -/
def cat (k : Fin 8) (kk : Fin 1024) : Fin 8192 := ⟨1024 * k.val + kk.val, by omega⟩

theorem cat_val (k : Fin 8) (kk : Fin 1024) : (cat k kk).val = 1024 * k.val + kk.val := rfl

/-- Splitting an index into its block and its position inside the block is a bijection
    (k, kk) ↦ 1024·k + kk, with inverse t ↦ (t / 1024, t % 1024). -/
def catEquiv : Fin 8 × Fin 1024 ≃ Fin 8192 where
  toFun p := cat p.1 p.2
  invFun t := (⟨t.val / 1024, by omega⟩, ⟨t.val % 1024, by omega⟩)
  left_inv := by
    rintro ⟨k, kk⟩
    have hk := k.isLt
    have hkk := kk.isLt
    ext
    · simp only [cat_val]; omega
    · simp only [cat_val]; omega
  right_inv := by
    intro t
    ext
    simp only [cat_val]
    omega

/-- A sum over all 8192 indices is the sum over the 8 blocks of the sums over the 1024 positions in each block. -/
theorem sum_blocks {M : Type*} [AddCommMonoid M] (f : Fin 8192 → M) :
    ∑ t : Fin 8192, f t = ∑ k : Fin 8, ∑ kk : Fin 1024, f (cat k kk) := by
  rw [← Equiv.sum_comp catEquiv f, Fintype.sum_prod_type]
  rfl

/-- The full contraction of two lower-triangular matrices is the sum over the blocks from the column's block to the
    row's block. -/
theorem sum_eq_band (A B : Fin 8192 → Fin 8192 → EReal)
    (hA : ∀ r t : Fin 8192, r.val < t.val → A r t = 0)
    (hB : ∀ t c : Fin 8192, t.val < c.val → B t c = 0)
    (r c : Fin 8192) :
    ∑ t : Fin 8192, A r t * B t c
      = ∑ k : Fin 8, if c.val / 1024 ≤ k.val ∧ k.val ≤ r.val / 1024 then ∑ kk : Fin 1024, A r (cat k kk) * B (cat k kk) c else 0 := by
  rw [sum_blocks]
  refine Finset.sum_congr rfl (fun k _ => ?_)
  split_ifs with h
  · rfl
  · -- the block lies outside the band: every term has a zero factor
    apply Finset.sum_eq_zero
    intro kk _
    have hkk := kk.isLt
    by_cases h1 : c.val / 1024 ≤ k.val
    · -- the block lies wholly after the row: 1024·k + kk > r, so the left factor vanishes
      have h2 : ¬ k.val ≤ r.val / 1024 := fun h2 => h ⟨h1, h2⟩
      have hlt : r.val < (cat k kk).val := by rw [cat_val]; omega
      rw [hA r (cat k kk) hlt, zero_mul]
    · -- the block lies wholly before the column: 1024·k + kk < c, so the right factor vanishes
      have hlt : (cat k kk).val < c.val := by rw [cat_val]; omega
      rw [hB (cat k kk) c hlt, mul_zero]

end Cert.Tri
-- ==== Proof.KI.Blocks.lean ====
/-
  The accumulator as a sum of block products, at the ideal instance. A point's step adds, entry by entry, the sum over
  the 1024 positions of the contraction block k of (left block (i, k)) · (right block (k, j)); the left block's entry
  (p, kk) is the left matrix's entry (1024 i + p, 1024 k + kk), the right block's (kk, q) is the right matrix's
  (1024 k + kk, 1024 j + q). Within a pair (i, j) the points run k = j, j + 1, …, so by induction along the pair the
  accumulator after the point with contraction block k is the sum over the blocks j, …, k.
-/
import proofs.«145046_j66924180406522_1_alg».proof.Proof.KI.Data
import proofs.«145046_j66924180406522_1_alg».proof.Proof.TriSum
import Idealize.ShloMosaic.Lib.ValueIdx
import Idealize.ShloMosaic.Lib.Pipeline.Value
import Idealize.ShloMosaic.PureOps.Ideal.Laws

set_option maxRecDepth 16384

noncomputable section

namespace Cert.KernelIdeal.Tri

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Facts₀ Facts

open Idealize.ShloMosaic.ValueIdx

variable (m : (ℓ : Loc nD τ sig) → Buf (Elt Ideal) ℓ) (ρ : Dev nD → PrngReg)

/-- The two argument matrices as the region finds them, at the literal type. -/
abbrev XA (c : Dev nD) : FVec Ideal S8192x8192 .f32 := V m c main_arg0
abbrev XB (c : Dev nD) : FVec Ideal S8192x8192 .f32 := V m c main_arg1
/-- The two input blocks of point `t`, at the literal type. -/
abbrev ablk (hO : Ok (F := Ideal)) (c : Dev nD) (t : Fin (cfgM hO).N) : Vec Ideal S1024x1024 .f32 := iblk m hO c 0 t
abbrev bblk (hO : Ok (F := Ideal)) (c : Dev nD) (t : Fin (cfgM hO).N) : Vec Ideal S1024x1024 .f32 := iblk m hO c 1 t
/-- The accumulator after point `t`, at the literal type. -/
abbrev accT (hO : Ok (F := Ideal)) (c : Dev nD) (t : Fin (cfgM hO).N) : Vec Ideal S1024x1024 .f32 := accAt m hO c t.val t.isLt

/-- Position `p` inside block `b` of an axis of 8 blocks of 1024. -/
def gidx (b : ℕ) (hb : b < 8) (p : Fin 1024) : Fin 8192 := ⟨1024 * b + p.val, by omega⟩
theorem gidx_val (b : ℕ) (hb : b < 8) (p : Fin 1024) : (gidx b hb p).val = 1024 * b + p.val := rfl

theorem lit0_lt (n : Fin 120) : (lit0 n).toNat < 8 := (lit_bounds n).1
theorem lit1_lt (n : Fin 120) : (lit1 n).toNat < 8 := by have := lit_bounds n; omega
theorem lit2_lt (n : Fin 120) : (lit2 n).toNat < 8 := by have := lit_bounds n; omega

/-- The zero fill, entry by entry. -/
theorem pay1_at (p q : Fin 1024) : k0_pay1 (F := Ideal) (ix2 p q) = (0 : EReal) := by
  unfold k0_pay1
  rw [shapeCast_self]
  exact Ideal.ofBits_zero_f32

/-- The matrix product's operand indices, axis by axis: at result entry (p, q) and contraction position k the left
    operand is read at (p, k) and the right at (k, q). -/
theorem lhs_mm_0 (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
theorem lhs_mm_1 (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q
theorem rhs_mm_0 (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q
theorem rhs_mm_1 (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- The product of two blocks into the zero accumulator, entry by entry: the sum over the 1024 contraction positions. -/
theorem mm_at (x0 x1 : FVec Ideal S1024x1024 .bf16) (p q : Fin 1024) :
    matmul dot_S1024x1024_S1024x1024_S1024x1024_1_0_0_1_n_n none x0 x1 (constant (F := Ideal) S1024x1024 .f32 0x00000000#32) (ix2 p q)
      = ∑ kk : Fin 1024, x0 (ix2 p kk) * x1 (ix2 kk q) := by
  refine (Ideal.matmul_constant_zero_apply dot_S1024x1024_S1024x1024_S1024x1024_1_0_0_1_n_n none x0 x1 (ix2 p q)).trans ?_
  rw [← Equiv.sum_comp (ValueIdx.contrEquiv1 dot_S1024x1024_S1024x1024_S1024x1024_1_0_0_1_n_n 1024 rfl rfl).symm]
  refine Finset.sum_congr rfl fun k _ => ?_
  have hk := ValueIdx.contrEquiv1_symm_val dot_S1024x1024_S1024x1024_S1024x1024_1_0_0_1_n_n 1024 rfl rfl k
  have el : dot_S1024x1024_S1024x1024_S1024x1024_1_0_0_1_n_n.lhsIdx (ix2 p q) ((ValueIdx.contrEquiv1 dot_S1024x1024_S1024x1024_S1024x1024_1_0_0_1_n_n 1024 rfl rfl).symm k) = ix2 p k := funext fun a => Fin.ext (by
    match a with
    | ⟨0, _⟩ => exact lhs_mm_0 _ _
    | ⟨1, _⟩ => exact (lhs_mm_1 _ _).trans hk)
  have er : dot_S1024x1024_S1024x1024_S1024x1024_1_0_0_1_n_n.rhsIdx (ix2 p q) ((ValueIdx.contrEquiv1 dot_S1024x1024_S1024x1024_S1024x1024_1_0_0_1_n_n 1024 rfl rfl).symm k) = ix2 k q := funext fun a => Fin.ext (by
    match a with
    | ⟨0, _⟩ => exact (rhs_mm_0 _ _).trans hk
    | ⟨1, _⟩ => exact rhs_mm_1 _ _)
  rw [el, er]

/-- One step, entry by entry: the accumulator's entry plus the row of the left block times the column of the right. -/
theorem pay2_at (x0 x1 x2 : Vec Ideal S1024x1024 .f32) (p q : Fin 1024) :
    k0_pay2 (F := Ideal) x0 x1 x2 (ix2 p q) = x2 (ix2 p q) + ∑ kk : Fin 1024, x0 (ix2 p kk) * x1 (ix2 kk q) := by
  unfold k0_pay2
  rw [shapeCast_self]
  refine (addf_apply _ _ _).trans ?_
  exact congrArg (x2 (ix2 p q) + ·) (mm_at _ _ p q)

set_option maxHeartbeats 400000 in
/-- The left block of point `t` is block (i, k) of the left matrix. -/
theorem ablk_at (hO : Ok (F := Ideal)) (c : Dev nD) (t : Fin (cfgM hO).N) (p kk : Fin 1024) :
    ablk m hO c t (ix2 p kk) = XA m c (ix2 (gidx (lit0 (pt hO t)).toNat (lit0_lt _) p) (gidx (lit2 (pt hO t)).toNat (lit2_lt _) kk)) := by
  show V m c main_arg0 ((((cfgM hO).win 0).blk t).view.emb (ix2 p kk)) = V m c main_arg0 _
  refine congrArg (V m c main_arg0) ?_
  have hidx := index0_0 hO t
  funext a
  apply Fin.ext
  match a with
  | ⟨0, _⟩ =>
    refine (Pipeline.Window.rect_emb_val ((cfgM hO).win 0) t (ix2 p kk) (0 : Fin 2)).trans ?_
    rw [hidx]
    show (lit0 (pt hO t)).toNat * 1024 + p.val = 1024 * (lit0 (pt hO t)).toNat + p.val
    omega
  | ⟨1, _⟩ =>
    refine (Pipeline.Window.rect_emb_val ((cfgM hO).win 0) t (ix2 p kk) (1 : Fin 2)).trans ?_
    rw [hidx]
    show (lit2 (pt hO t)).toNat * 1024 + kk.val = 1024 * (lit2 (pt hO t)).toNat + kk.val
    omega
set_option maxHeartbeats 400000 in
/-- The right block of point `t` is block (k, j) of the right matrix. -/
theorem bblk_at (hO : Ok (F := Ideal)) (c : Dev nD) (t : Fin (cfgM hO).N) (kk q : Fin 1024) :
    bblk m hO c t (ix2 kk q) = XB m c (ix2 (gidx (lit2 (pt hO t)).toNat (lit2_lt _) kk) (gidx (lit1 (pt hO t)).toNat (lit1_lt _) q)) := by
  show V m c main_arg1 ((((cfgM hO).win 1).blk t).view.emb (ix2 kk q)) = V m c main_arg1 _
  refine congrArg (V m c main_arg1) ?_
  have hidx := index0_1 hO t
  funext a
  apply Fin.ext
  match a with
  | ⟨0, _⟩ =>
    refine (Pipeline.Window.rect_emb_val ((cfgM hO).win 1) t (ix2 kk q) (0 : Fin 2)).trans ?_
    rw [hidx]
    show (lit2 (pt hO t)).toNat * 1024 + kk.val = 1024 * (lit2 (pt hO t)).toNat + kk.val
    omega
  | ⟨1, _⟩ =>
    refine (Pipeline.Window.rect_emb_val ((cfgM hO).win 1) t (ix2 kk q) (1 : Fin 2)).trans ?_
    rw [hidx]
    show (lit1 (pt hO t)).toNat * 1024 + q.val = 1024 * (lit1 (pt hO t)).toNat + q.val
    omega

/-- A sum over the band of blocks j, …, j is its one term. -/
theorem band_single {M : Type*} [AddCommMonoid M] (f : Fin 8 → M) (j : Fin 8) :
    (∑ x : Fin 8, if j.val ≤ x.val ∧ x.val ≤ j.val then f x else 0) = f j := by
  have hpt : ∀ x : Fin 8, (if j.val ≤ x.val ∧ x.val ≤ j.val then f x else 0) = (if x = j then f x else 0) := by
    intro x
    by_cases h : x = j
    · subst h
      rw [if_pos ⟨le_refl _, le_refl _⟩, if_pos rfl]
    · have hv : x.val ≠ j.val := fun e => h (Fin.ext e)
      rw [if_neg (fun hh => by omega), if_neg h]
  rw [Finset.sum_congr rfl (fun x _ => hpt x), Finset.sum_ite_eq' Finset.univ j f, if_pos (Finset.mem_univ _)]

/-- A sum over the band of blocks j, …, k is the sum over j, …, k − 1 plus the term of block k. -/
theorem band_succ {M : Type*} [AddCommMonoid M] (f : Fin 8 → M) (j k' : ℕ) (k : Fin 8) (hk : k' + 1 = k.val) (hjk : j ≤ k.val) :
    (∑ x : Fin 8, if j ≤ x.val ∧ x.val ≤ k' then f x else 0) + f k
      = ∑ x : Fin 8, if j ≤ x.val ∧ x.val ≤ k.val then f x else 0 := by
  have hpt : ∀ x : Fin 8, (if j ≤ x.val ∧ x.val ≤ k.val then f x else 0)
      = (if j ≤ x.val ∧ x.val ≤ k' then f x else 0) + (if x = k then f x else 0) := by
    intro x
    by_cases h1 : x.val ≤ k'
    · have hne : ¬ x = k := fun e => by have := congrArg Fin.val e; omega
      rw [if_neg hne, add_zero]
      by_cases h2 : j ≤ x.val
      · rw [if_pos ⟨h2, by omega⟩, if_pos ⟨h2, h1⟩]
      · rw [if_neg (fun h => h2 h.1), if_neg (fun h => h2 h.1)]
    · by_cases h3 : x = k
      · subst h3
        rw [if_pos ⟨hjk, le_refl _⟩, if_neg (fun h => h1 h.2), if_pos rfl, zero_add]
      · have hv : x.val ≠ k.val := fun e => h3 (Fin.ext e)
        rw [if_neg (fun h => by omega), if_neg (fun h => h1 h.2), if_neg h3, add_zero]
  rw [Finset.sum_congr rfl (fun x _ => hpt x), Finset.sum_add_distrib, Finset.sum_ite_eq' Finset.univ k f, if_pos (Finset.mem_univ _)]

/-- The block indices (i, j, k) of point `n`, as indices below 8. -/
def bi (n : Fin 120) : Fin 8 := ⟨(lit0 n).toNat, lit0_lt n⟩
def bj (n : Fin 120) : Fin 8 := ⟨(lit1 n).toNat, lit1_lt n⟩
def bk (n : Fin 120) : Fin 8 := ⟨(lit2 n).toNat, lit2_lt n⟩

/-- Entry (p, q) of the product of block (i, k) of the left matrix with block (k, j) of the right one. -/
def blockProd (c : Dev nD) (p q : Fin 1024) (i j k : Fin 8) : EReal :=
  ∑ kk : Fin 1024, XA m c (ix2 (gidx i.val i.isLt p) (Cert.Tri.cat k kk)) * XB m c (ix2 (Cert.Tri.cat k kk) (gidx j.val j.isLt q))

/-- One point's step on any accumulator contents, entry by entry: the entry plus that of the product of the point's two
    blocks, which are blocks (i, k) and (k, j) of the two matrices. -/
theorem step_at (hO : Ok (F := Ideal)) (c : Dev nD) (t : Fin (cfgM hO).N) (x2 : Vec Ideal S1024x1024 .f32) (p q : Fin 1024) :
    k0_pay2 (F := Ideal) (ablk m hO c t) (bblk m hO c t) x2 (ix2 p q)
      = x2 (ix2 p q) + blockProd m c p q (bi (pt hO t)) (bj (pt hO t)) (bk (pt hO t)) := by
  refine (pay2_at (ablk m hO c t) (bblk m hO c t) x2 p q).trans ?_
  refine congrArg (x2 (ix2 p q) + ·) ?_
  unfold blockProd
  refine Finset.sum_congr rfl fun kk _ => ?_
  rw [ablk_at, bblk_at]
  rfl

/-- The accumulator after point `n` of the pipeline, by induction along the points: at the first point of a pair
    (k = j) the band is the single block j; at any other point the point before is in the same pair with k one
    less, and the band grows by block k. -/
theorem accAt_band (hO : Ok (F := Ideal)) (c : Dev nD) (n : ℕ) : ∀ (hn : n < (cfgM hO).N) (p q : Fin 1024),
    accAt m hO c n hn (ix2 p q)
      = ∑ k : Fin 8, if (bj (pt hO ⟨n, hn⟩)).val ≤ k.val ∧ k.val ≤ (bk (pt hO ⟨n, hn⟩)).val then
          blockProd m c p q (bi (pt hO ⟨n, hn⟩)) (bj (pt hO ⟨n, hn⟩)) k else 0 := by
  induction n using Nat.strong_induction_on with
  | _ n ih =>
    intro hn p q
    cases hr : resetB (pt hO ⟨n, hn⟩) with
    | true =>
      have hjk0 : (lit2 (pt hO ⟨n, hn⟩)).toNat = (lit1 (pt hO ⟨n, hn⟩)).toNat := congrArg BitVec.toNat (lit_of_reset _ hr)
      have hjk : bk (pt hO ⟨n, hn⟩) = bj (pt hO ⟨n, hn⟩) := Fin.ext hjk0
      refine (congrFun (accAt_of_reset m hO c ⟨n, hn⟩ hr) (ix2 p q)).trans ?_
      refine (step_at m hO c ⟨n, hn⟩ (k0_pay1 (F := Ideal)) p q).trans ?_
      rw [pay1_at, zero_add, hjk]
      exact (band_single (fun k => blockProd m c p q (bi (pt hO ⟨n, hn⟩)) (bj (pt hO ⟨n, hn⟩)) k) (bj (pt hO ⟨n, hn⟩))).symm
    | false =>
      obtain ⟨hpos, h0, h1, h2⟩ := lit_of_not_reset (pt hO ⟨n, hn⟩) hr
      have hpos' : 0 < n := hpos
      have hn' : n - 1 < (cfgM hO).N := by omega
      have hi0 : (lit0 (pt hO ⟨n - 1, hn'⟩)).toNat = (lit0 (pt hO ⟨n, hn⟩)).toNat := congrArg BitVec.toNat h0
      have hi : bi (pt hO ⟨n - 1, hn'⟩) = bi (pt hO ⟨n, hn⟩) := Fin.ext hi0
      have hj0 : (lit1 (pt hO ⟨n - 1, hn'⟩)).toNat = (lit1 (pt hO ⟨n, hn⟩)).toNat := congrArg BitVec.toNat h1
      have hj : bj (pt hO ⟨n - 1, hn'⟩) = bj (pt hO ⟨n, hn⟩) := Fin.ext hj0
      have hk : (bk (pt hO ⟨n - 1, hn'⟩)).val + 1 = (bk (pt hO ⟨n, hn⟩)).val := h2
      have hjk : (bj (pt hO ⟨n, hn⟩)).val ≤ (bk (pt hO ⟨n, hn⟩)).val := (lit_bounds (pt hO ⟨n, hn⟩)).2.1
      have e := ih (n - 1) (by omega) hn' p q
      rw [hi, hj] at e
      refine (congrFun (accAt_of_not_reset m hO c ⟨n, hn⟩ hr) (ix2 p q)).trans ?_
      refine (step_at m hO c ⟨n, hn⟩ _ p q).trans ?_
      refine (congrArg (· + blockProd m c p q (bi (pt hO ⟨n, hn⟩)) (bj (pt hO ⟨n, hn⟩)) (bk (pt hO ⟨n, hn⟩))) e).trans ?_
      exact band_succ (fun k => blockProd m c p q (bi (pt hO ⟨n, hn⟩)) (bj (pt hO ⟨n, hn⟩)) k) _ _ _ hk hjk

/-- The accumulator after point `t` = (i, j, k): the sum over the contraction blocks j, …, k. -/
theorem accT_at (hO : Ok (F := Ideal)) (c : Dev nD) (t : Fin (cfgM hO).N) (p q : Fin 1024) :
    accT m hO c t (ix2 p q)
      = ∑ k : Fin 8, if (lit1 (pt hO t)).toNat ≤ k.val ∧ k.val ≤ (lit2 (pt hO t)).toNat then
          ∑ kk : Fin 1024, XA m c (ix2 (gidx (lit0 (pt hO t)).toNat (lit0_lt _) p) (Cert.Tri.cat k kk))
            * XB m c (ix2 (Cert.Tri.cat k kk) (gidx (lit1 (pt hO t)).toNat (lit1_lt _) q))
        else 0 :=
  accAt_band m hO c t.val t.isLt p q

end Cert.KernelIdeal.Tri

end
-- ==== Proof.Tril.lean ====
/-
  The lower-triangular mask jnp.tril lowers to: keep entry (r, c) when r + 0 ≥ c (a signed comparison of the two
  iotas as 32-bit words), else the constant zero. Read at one index it is a plain if-then-else on c ≤ r.
-/
import Idealize.ShloMosaic.PureOps.Ideal
import Idealize.ShloMosaic.PureOps.Ideal.Laws
import Idealize.ShloMosaic.Lib.ValueIdx
import Idealize.ShloMosaic.Lib.Pipeline.Value
import Idealize.ShloMosaic.Lib.StableHlo.Predicate

noncomputable section

namespace Cert.Spec

open Idealize.ShloMosaic Idealize.ShloMosaic.ValueIdx

/-- A row or column number of the 8192 × 8192 matrix, as a 32-bit word, still has that number as its value. -/
private theorem toNat_ofNat_of_lt (n : ℕ) (h : n < 8192) : (BitVec.ofNat 32 n).toNat = n := by
  rw [BitVec.toNat_ofNat]
  exact Nat.mod_eq_of_lt (by omega)

/-- Adding the zero word changes nothing. -/
private theorem addi_zero (x : BitVec 32) : IntOp.addi x 0#32 = x := by
  unfold IntOp.addi
  exact BitVec.add_zero x

/-- The signed test "row word + 0 ≥ column word" holds exactly when the column number is at most the row number:
    both words are far below 2³¹, so the signed order is the order of their values. -/
private theorem sge_row_col (r c : Fin 8192) :
    IntOp.cmpi .sge (IntOp.addi (BitVec.ofNat 32 r.val) 0#32) (BitVec.ofNat 32 c.val) = 1#1 ↔ c.val ≤ r.val := by
  have hr : (BitVec.ofNat 32 r.val).toNat = r.val := toNat_ofNat_of_lt r.val r.isLt
  have hc : (BitVec.ofNat 32 c.val).toNat = c.val := toNat_ofNat_of_lt c.val c.isLt
  have hr' : r.val < 8192 := r.isLt
  have hc' : c.val < 8192 := c.isLt
  rw [addi_zero, StableHlo.Predicate.sge_iff_toNat (by rw [hr]; omega) (by rw [hc]; omega), hr, hc]

/-- The mask's chain of host operations applied to a matrix `Z`, read at (r, c), at the ideal instance: `Z`'s entry on
    and below the diagonal, zero above it. -/
theorem tril_at (bc : (⟨0, ![]⟩ : Shape).BroadcastsInDim (⟨2, ![8192, 8192]⟩ : Shape) (![] : Fin 0 → Fin 2))
    (Z : FVec Ideal (⟨2, ![8192, 8192]⟩ : Shape) .f32) (r c : Fin 8192) :
    select (cmpi .sge (addi (iotaInDim (⟨2, ![8192, 8192]⟩ : Shape) 32 0) (broadcastInDim (⟨2, ![8192, 8192]⟩ : Shape) ![] bc (constantI (⟨0, ![]⟩ : Shape) 32 0#32))) (iotaInDim (⟨2, ![8192, 8192]⟩ : Shape) 32 1))
        Z (broadcastInDim (⟨2, ![8192, 8192]⟩ : Shape) ![] bc (constant (F := Ideal) (⟨0, ![]⟩ : Shape) .f32 0x00000000#32)) (ix2 r c)
      = if c.val ≤ r.val then Z (ix2 r c) else (0 : EReal) := by
  -- select, compare and add act entry by entry; the two iotas read the row and the column number
  show Scalar.select
      (IntOp.cmpi .sge
        (IntOp.addi (BitVec.ofNat 32 r.val)
          (broadcastInDim (⟨2, ![8192, 8192]⟩ : Shape) ![] bc (constantI (⟨0, ![]⟩ : Shape) 32 0#32) (ix2 r c)))
        (BitVec.ofNat 32 c.val))
      (Z (ix2 r c))
      (broadcastInDim (⟨2, ![8192, 8192]⟩ : Shape) ![] bc (constant (F := Ideal) (⟨0, ![]⟩ : Shape) .f32 0x00000000#32) (ix2 r c))
    = _
  -- a broadcast scalar reads the scalar everywhere
  rw [broadcastInDim_apply ![] bc (constantI (⟨0, ![]⟩ : Shape) 32 0#32) (ix2 r c) (fun a => a.elim0) (fun a => a.elim0),
    broadcastInDim_apply ![] bc (constant (F := Ideal) (⟨0, ![]⟩ : Shape) .f32 0x00000000#32) (ix2 r c) (fun a => a.elim0)
      (fun a => a.elim0)]
  show Scalar.select (IntOp.cmpi .sge (IntOp.addi (BitVec.ofNat 32 r.val) 0#32) (BitVec.ofNat 32 c.val)) (Z (ix2 r c))
      (Ideal.ofBits .f32 0x00000000#32) = _
  rw [Ideal.ofBits_zero_f32]
  unfold Scalar.select
  by_cases h : c.val ≤ r.val
  · rw [if_pos h]
    exact if_pos ((sge_row_col r c).mpr h)
  · rw [if_neg h]
    exact if_neg (fun h' => h ((sge_row_col r c).mp h'))

end Cert.Spec

end
-- ==== Proof.KI.Final.lean ====
/-
  The kernel's result, entry by entry, at the ideal instance. The output's block (i, j), j ≤ i, is written back once,
  after the pair's last point, with the accumulator's value there: the sum over the contraction blocks j, …, i of the
  block products. An entry (r, c) on or below the diagonal lies in such a block (c ≤ r gives c / 1024 ≤ r / 1024), so
  the array after the region holds there the banded sum; the blocks above the diagonal are never written, and the
  triangular mask that follows the region replaces every entry above the diagonal by zero whatever it held.
-/
import proofs.«145046_j66924180406522_1_alg».proof.Proof.KI.Blocks
import proofs.«145046_j66924180406522_1_alg».proof.Proof.Tril

set_option maxRecDepth 16384

noncomputable section

namespace Cert.KernelIdeal.Tri

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Facts₀ Facts

open Idealize.ShloMosaic.ValueIdx

variable (m : (ℓ : Loc nD τ sig) → Buf (Elt Ideal) ℓ) (ρ : Dev nD → PrngReg)

/-- The banded sum of block products at entry (r, c): contraction blocks from the column's block to the row's. -/
def bandAt (X Y : FVec Ideal S8192x8192 .f32) (r c : Fin 8192) : EReal :=
  ∑ k : Fin 8, if c.val / 1024 ≤ k.val ∧ k.val ≤ r.val / 1024 then
    ∑ kk : Fin 1024, X (ix2 r (Cert.Tri.cat k kk)) * Y (ix2 (Cert.Tri.cat k kk) c) else 0

/-- The output array after the region, at the literal type. -/
abbrev outArr (hO : Ok (F := Ideal)) (c : Dev nD) : FVec Ideal S8192x8192 .f32 := (dats m hO 0 c).arrAt 2 (cfgM hO).N

/-- The banded sums as one whole array. -/
def bandArr (X Y : FVec Ideal S8192x8192 .f32) : FVec Ideal S8192x8192 .f32 :=
  fun idx => bandAt X Y (idx 0) (idx 1)

/-- Position p inside block b lies in block b. -/
theorem gidx_div (b : ℕ) (hb : b < 8) (p : Fin 1024) : (gidx b hb p).val / 1024 = b := by
  rw [gidx_val]; have := p.isLt; omega

/-- What a pair's closing point (k = i) writes back is its block of the banded-sum array: the accumulator there is the
    sum over the contraction blocks j, …, i, and entry (p, q) of block (i, j) is the array's entry
    (1024 i + p, 1024 j + q), whose row lies in block i and whose column lies in block j. -/
theorem flushed_eq (hO : Ok (F := Ideal)) (c : Dev nD) (t : Fin (cfgM hO).N) (hf : ((cfgM hO).win 2).flush t = true) :
    (dats m hO 0 c).flushed 2 t = (((cfgM hO).win 2).blk t).view.read (Elt Ideal) (bandArr (XA m c) (XB m c)) := by
  show ((cfgM hO).win 2).cut ((cfgM hO).grid.coords t) ((dats m hO 0 c).after 2 t) = _
  rw [after0_2]
  refine funext fun (y : S1024x1024.Idx) => ?_
  obtain ⟨p, q, rfl⟩ : ∃ (p q : Fin 1024), y = ix2 p q := ⟨y 0, y 1, eq_ix2 y⟩
  show accT m hO c t (ix2 p q) = bandArr (XA m c) (XB m c) ((((cfgM hO).win 2).blk t).view.emb (ix2 p q))
  -- at a closing point the contraction block is the row block
  have hl : lit2 (pt hO t) = lit0 (pt hO t) := lit_of_flush (pt hO t) (by rw [← flush0_2 hO t]; exact hf)
  have hidx := index0_2 hO t
  -- where the block's entry (p, q) sits in the array
  have e0 : ((((cfgM hO).win 2).blk t).view.emb (ix2 p q) : S8192x8192.Idx) (0 : Fin 2) = gidx (lit0 (pt hO t)).toNat (lit0_lt _) p := by
    apply Fin.ext
    show ((cfgM hO).win 2).index t (0 : Fin 2) * 1024 + 1 * p.val = 1024 * (lit0 (pt hO t)).toNat + p.val
    rw [hidx]
    show (lit0 (pt hO t)).toNat * 1024 + 1 * p.val = _
    omega
  have e1 : ((((cfgM hO).win 2).blk t).view.emb (ix2 p q) : S8192x8192.Idx) (1 : Fin 2) = gidx (lit1 (pt hO t)).toNat (lit1_lt _) q := by
    apply Fin.ext
    show ((cfgM hO).win 2).index t (1 : Fin 2) * 1024 + 1 * q.val = 1024 * (lit1 (pt hO t)).toNat + q.val
    rw [hidx]
    show (lit1 (pt hO t)).toNat * 1024 + 1 * q.val = _
    omega
  rw [accT_at]
  show _ = bandAt (XA m c) (XB m c) (((((cfgM hO).win 2).blk t).view.emb (ix2 p q) : S8192x8192.Idx) (0 : Fin 2)) (((((cfgM hO).win 2).blk t).view.emb (ix2 p q) : S8192x8192.Idx) (1 : Fin 2))
  rw [e0, e1]
  unfold bandAt
  rw [gidx_div, gidx_div, hl]

/-- On and below the diagonal the output array holds the banded sum. -/
theorem outArr_at (hO : Ok (F := Ideal)) (c : Dev nD) (r cc : Fin 8192) (h : cc.val ≤ r.val) :
    outArr m hO c (ix2 r cc) = bandAt (XA m c) (XB m c) r cc := by
  have hr : r.val < 8192 := r.isLt
  have hcc : cc.val < 8192 := cc.isLt
  -- the pair (r / 1024, cc / 1024) has column block ≤ row block, so it has a closing point
  obtain ⟨n, hfl, hi, hj⟩ := exists_flush ⟨r.val / 1024, by omega⟩ ⟨cc.val / 1024, by omega⟩ (Nat.div_le_div_right h)
  have hi' : (lit0 n).toNat = r.val / 1024 := hi
  have hj' : (lit1 n).toNat = cc.val / 1024 := hj
  let t : Fin (cfgM hO).N := Fin.cast (N_M hO).symm n
  have hpt : pt hO t = n := Fin.ext rfl
  have hf : ((cfgM hO).win 2).flush t = true := by rw [flush0_2, hpt]; exact hfl
  have hidx := index0_2 hO t
  rw [hpt] at hidx
  -- the entry (r, cc) is entry (r mod 1024, cc mod 1024) of that point's block
  have hemb : ((((cfgM hO).win 2).blk t).view.emb (ix2 (⟨r.val % 1024, Nat.mod_lt _ (by decide)⟩ : Fin 1024) (⟨cc.val % 1024, Nat.mod_lt _ (by decide)⟩ : Fin 1024)) : S8192x8192.Idx) = ix2 r cc := by
    funext a
    apply Fin.ext
    match a with
    | ⟨0, _⟩ =>
      show ((cfgM hO).win 2).index t (0 : Fin 2) * 1024 + 1 * (r.val % 1024) = r.val
      rw [hidx]
      show (lit0 n).toNat * 1024 + 1 * (r.val % 1024) = r.val
      omega
    | ⟨1, _⟩ =>
      show ((cfgM hO).win 2).index t (1 : Fin 2) * 1024 + 1 * (cc.val % 1024) = cc.val
      rw [hidx]
      show (lit1 n).toNat * 1024 + 1 * (cc.val % 1024) = cc.val
      omega
  have hmem : (ix2 r cc : S8192x8192.Idx) ∈ (((cfgM hO).win 2).blk t).view.set := by
    rw [← hemb]; exact View.emb_mem_set _ _
  -- every closing point writes back its block of the one banded-sum array, so a covered entry holds that array's value
  exact (dats m hO 0 c).arrAt_apply_of_mem 2 (bandArr (XA m c) (XB m c)) (fun t hf => flushed_eq m hO c t hf) (cfgM hO).N t (ix2 r cc) t.isLt hf hmem

/-- The result buffer after the whole program: the triangular mask applied to the output array. -/
theorem tail_value (hO : Ok (F := Ideal)) (c : Dev nD) :
    Pipeline.afterTail pcfgs (fun _ => adm hO) (dats m hO) 0 (V0 m) [hostOps1] c main_v1
      = select (cmpi .sge (addi (iotaInDim S8192x8192 32 0) (broadcastInDim S8192x8192 ![] Facts₀.bcast_S_S8192x8192 (constantI S_ 32 0#32))) (iotaInDim S8192x8192 32 1))
          (outArr m hO c) (broadcastInDim S8192x8192 ![] Facts₀.bcast_S_S8192x8192 (constant (F := Ideal) S_ .f32 0x00000000#32)) := by
  -- the nine operations of the mask, run from the region's exit contents, leave the select of their chain
  unfold Pipeline.afterTail
  simp only [List.flatten_cons, List.flatten_nil, List.append_nil]
  show StableHlo.after hostOps1 _ (Proc.devRef .tc main_v1) = _
  after_results
  simp only [StableHlo.TRef.ofBuf, StableHlo.TRef.toBuf, cast_eq]
  -- the region's exit contents at the output array's buffer are the output array
  have hA : Pipeline.withArrays spec0 c (V0 m c) (fun w => (dats m hO 0 c).arrAt w (cfgM hO).N) (Proc.devRef .tc main_v0) = outArr m hO c :=
    Pipeline.withArrays_arr spec0 (launch0 (F := Ideal)).win.arr_inj c (V0 m c) (fun w => (dats m hO 0 c).arrAt w (cfgM hO).N) 2
  exact congrArg (fun Z : FVec Ideal S8192x8192 .f32 => select _ Z _) hA

/-- The result, entry by entry. -/
theorem result_at (hO : Ok (F := Ideal)) (c : Dev nD) (r cc : Fin 8192) :
    (Pipeline.afterTail pcfgs (fun _ => adm hO) (dats m hO) 0 (V0 m) [hostOps1] c main_v1 : FVec Ideal S8192x8192 .f32) (ix2 r cc)
      = if cc.val ≤ r.val then bandAt (XA m c) (XB m c) r cc else (0 : EReal) := by
  rw [tail_value m hO c, Cert.Spec.tril_at]
  split
  · rename_i h; exact outArr_at m hO c r cc h
  · rfl

end Cert.KernelIdeal.Tri

end
-- ==== Proof.KI.Value.lean ====
/-
  The idealized kernel's run with its result named: the program terminates with the result buffer at the triangular
  mask of the output array the region leaves, and with its two arguments unchanged.
-/
import proofs.«145046_j66924180406522_1_alg».proof.Proof.KI.Frame
import proofs.«145046_j66924180406522_1_alg».proof.Proof.KI.Final

set_option maxRecDepth 16384

noncomputable section

namespace Cert.KernelIdeal.Tri

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Facts₀ Facts

open Idealize.ShloMosaic.ValueIdx

variable (m : (ℓ : Loc nD τ sig) → Buf (Elt Ideal) ℓ) (ρ : Dev nD → PrngReg)

/-- The result buffer after the run, on core `c`. -/
abbrev resultOf (hO : Ok (F := Ideal)) (c : Dev nD) : Buf (Elt Ideal) ((c.tc : Thread nD τ).loc main_v1) :=
  Pipeline.afterTail pcfgs (fun _ => adm hO) (dats m hO) 0 (V0 m) [hostOps1] c main_v1

/-- Every weakly fair execution terminates with the result buffer at `resultOf` and the arguments unchanged. -/
theorem value_run (hO : Ok (F := Ideal)) : θ_run defs (onTc (τ := τ) (main (F := Ideal))) ⟨m, fun _ => 0, ρ⟩ (fun r => ∀ c : Dev nD,
      r.2.mem ((c.tc : Thread nD τ).loc main_v1) = resultOf m hO c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).2 main_v1 (by decide : main_v1 ∈ Pipeline.restRefs sig spec0),
      ((h c).1 0).trans (((dats m hO 0 c).arrAt_in 0 rfl _).trans ((A_eq m hO c 0).trans (V_main_arg0 m c))),
      ((h c).1 1).trans (((dats m hO 0 c).arrAt_in 1 rfl _).trans ((A_eq m hO c 1).trans (V_main_arg1 m c)))⟩) (run_main m ρ hO)

/-- The result, entry by entry, over the launch contents of the two arguments. -/
theorem resultOf_at (hO : Ok (F := Ideal)) (c : Dev nD) (r cc : Fin 8192) :
    (resultOf m hO c : FVec Ideal S8192x8192 .f32) (ix2 r cc)
      = if cc.val ≤ r.val then bandAt (m ((c.tc : Thread nD τ).loc main_arg0)) (m ((c.tc : Thread nD τ).loc main_arg1)) r cc else (0 : EReal) := by
  rw [← V_main_arg0 m c, ← V_main_arg1 m c]
  exact result_at m hO c r cc

end Cert.KernelIdeal.Tri

end
-- ==== Proof.RefValue.lean ====
/-
  The reference, read at one index: tril(A · B) at (r, c) is the full contraction Σ_t A[r,t] · B[t,c] on and below
  the diagonal and zero above it.
-/
import proofs.«145046_j66924180406522_1_alg».proof.Proof.Gen.ReferenceIdeal.Read
import proofs.«145046_j66924180406522_1_alg».proof.Proof.Tril

noncomputable section

namespace Cert.ReferenceIdeal.RefValue

open Idealize.ShloMosaic Idealize.ShloMosaic.ValueIdx Cert.ReferenceIdeal Cert.ReferenceIdeal.Gen

/-- The left operand's index in the contraction at (r, c), step t, is (r, t). -/
private theorem lidx_eq (r c t : Fin 8192) : Read.lidx_main_v0 (ix2 r c) t = ix2 r t :=
  funext fun a => Fin.ext (by match a with | ⟨0, _⟩ => rfl | ⟨1, _⟩ => rfl)

/-- The right operand's index in the contraction at (r, c), step t, is (t, c). -/
private theorem ridx_eq (r c t : Fin 8192) : Read.ridx_main_v0 (ix2 r c) t = ix2 t c :=
  funext fun a => Fin.ext (by match a with | ⟨0, _⟩ => rfl | ⟨1, _⟩ => rfl)

/-- The matrix product read at (r, c): the full contraction Σ_t A[r,t] · B[t,c]. -/
private theorem dot_at (x0 x1 : FVec Ideal S8192x8192 .f32) (r c : Fin 8192) :
    Host.dotGeneral (F := Ideal) dot_S8192x8192_S8192x8192_S8192x8192_1_0_0_1_n_n none x0 x1 (ix2 r c)
      = ∑ t : Fin 8192, x0 (ix2 r t) * x1 (ix2 t c) := by
  show Read.val_main_v0 (F := Ideal) x0 x1 (ix2 r c) = _
  rw [Read.val_main_v0_apply]
  refine Finset.sum_congr rfl fun t _ => ?_
  rw [lidx_eq, ridx_eq]

/-- The reference's result term (as its generated run states it), at (r, c). -/
theorem result_at (x0 x1 : FVec Ideal S8192x8192 .f32) (r c : Fin 8192) :
    select (cmpi .sge (addi (iotaInDim S8192x8192 32 0) (broadcastInDim S8192x8192 ![] bcast_S_S8192x8192 (constantI S_ 32 0#32))) (iotaInDim S8192x8192 32 1))
        (Host.dotGeneral (F := Ideal) dot_S8192x8192_S8192x8192_S8192x8192_1_0_0_1_n_n none x0 x1)
        (broadcastInDim S8192x8192 ![] bcast_S_S8192x8192 (constant (F := Ideal) S_ .f32 0x00000000#32)) (ix2 r c)
      = if c.val ≤ r.val then ∑ t : Fin 8192, x0 (ix2 r t) * x1 (ix2 t c) else (0 : EReal) := by
  -- the mask keeps the product's entry on and below the diagonal; that entry is the full contraction
  have h := Cert.Spec.tril_at bcast_S_S8192x8192
    (Host.dotGeneral (F := Ideal) dot_S8192x8192_S8192x8192_S8192x8192_1_0_0_1_n_n none x0 x1) r c
  rw [dot_at x0 x1 r c] at h
  exact h

end Cert.ReferenceIdeal.RefValue

end
-- ==== Proof.PreRead.lean ====
/-
  What the precondition says, read entry by entry at the ideal instance: besides finiteness, every entry of A and of B
  strictly above the diagonal (column index greater than row index) is zero.
-/
import proofs.«145046_j66924180406522_1_alg».proof.Pre_finite_inputs
import proofs.«145046_j66924180406522_1_alg».proof.Proof.Gen.Pre_finite_inputs
import Idealize.ShloMosaic.PureOps.Ideal
import Idealize.ShloMosaic.PureOps.Ideal.Laws
import Idealize.ShloMosaic.Lib.ValueIdx
import Idealize.ShloMosaic.Lib.ReduceAll
import Idealize.ShloMosaic.Lib.StableHlo.Predicate

noncomputable section

namespace Cert.PreRead

open Idealize.ShloMosaic Idealize.ShloMosaic.ValueIdx

/-- The rank-0 shape has exactly one index. -/
instance subsingleton_scalar_idx : Subsingleton Cert.Pre_finite_inputs.S_.Idx :=
  ⟨fun _ _ => funext fun d => d.elim0⟩

/-- One matrix's triangularity conjunct, read at an entry: if "column ≤ row, or the entry equals 0.0", and-ed over
    every entry, comes out true, then an entry whose column index exceeds its row index is zero. At such an entry the
    index comparison is false (both indices are below 2³¹, so they compare signed as they do as naturals), hence the
    float comparison with the broadcast zero must hold, and at the ideal instance that comparison is equality of
    extended reals. -/
theorem entry_zero_of_all (M : FVec Ideal Cert.Pre_finite_inputs.S8192x8192 .f32)
    (init : IVec Cert.Pre_finite_inputs.S_ 1)
    (e : Host.reduce IntOp.andi
        (ori (cmpi .sle (iotaInDim Cert.Pre_finite_inputs.S8192x8192 32 1) (iotaInDim Cert.Pre_finite_inputs.S8192x8192 32 0))
          (cmpf .oeq M (broadcastInDim Cert.Pre_finite_inputs.S8192x8192 ![] Cert.Pre_finite_inputs.Facts.bcast_S_S8192x8192
            (constant Cert.Pre_finite_inputs.S_ .f32 0x00000000#32))))
        init Cert.Pre_finite_inputs.Facts.reducesTo_S8192x8192_S_d0_1 Cert.Pre_finite_inputs.Facts.h_S_ ix0 = 1#1)
    (r t : Fin 8192) (hrt : r.val < t.val) : M (ix2 r t) = (0 : EReal) := by
  have h1 : IntOp.ori (IntOp.cmpi .sle (BitVec.ofNat 32 t.val) (BitVec.ofNat 32 r.val))
      (Ideal.cmp .oeq (M (ix2 r t)) (Ideal.ofBits .f32 0x00000000#32)) = 1#1 :=
    Host.reduce_andi_all _ _ _ _ _ e (ix2 r t)
  have hr : r.val < 8192 := r.isLt
  have ht : t.val < 8192 := t.isLt
  have hrn : (BitVec.ofNat 32 r.val).toNat = r.val := by
    rw [BitVec.toNat_ofNat]; exact Nat.mod_eq_of_lt (by omega)
  have htn : (BitVec.ofNat 32 t.val).toNat = t.val := by
    rw [BitVec.toNat_ofNat]; exact Nat.mod_eq_of_lt (by omega)
  rcases IntOp.ori_eq_one.1 h1 with hc | hc
  · exfalso
    have hle := (StableHlo.Predicate.sle_iff_toNat (by rw [htn]; omega) (by rw [hrn]; omega)).1 hc
    rw [htn, hrn] at hle
    omega
  · rw [Ideal.ofBits_zero_f32] at hc
    have hb : decide (M (ix2 r t) = (0 : EReal)) = true := (StableHlo.Predicate.ofBool_eq_one_iff _).1 hc
    exact of_decide_eq_true hb

/-- Under the precondition both inputs are lower triangular. -/
theorem lower_of_pre (X Y : FVec Ideal Cert.Pre_finite_inputs.S8192x8192 .f32)
    (h : Cert.Pre_finite_inputs.fn (F := Ideal) X Y = fun _ => 1#1) :
    (∀ r t : Fin 8192, r.val < t.val → X (ix2 r t) = (0 : EReal))
      ∧ (∀ t c : Fin 8192, t.val < c.val → Y (ix2 t c) = (0 : EReal)) := by
  -- the predicate's one element, as the and of its four conjuncts
  have h0 := congrFun h ix0
  unfold Cert.Pre_finite_inputs.fn Cert.Pre_finite_inputs.fn_part1 at h0
  dsimp only at h0
  obtain ⟨h16, h23⟩ := IntOp.andi_eq_one.1 h0
  obtain ⟨_, h15⟩ := IntOp.andi_eq_one.1 h16
  exact ⟨fun r t hrt => entry_zero_of_all X _ h15 r t hrt, fun t c htc => entry_zero_of_all Y _ h23 t c htc⟩

end Cert.PreRead

end
-- ==== Proof.lean ====
/-
  C = tril(A · B) for lower-triangular A and B of order 8192, computed block by block. The kernel walks the 120 triples
  (i, j, k) of 1024-blocks with j ≤ k ≤ i: for each pair j ≤ i it accumulates A[i,k] · B[k,j] over k = j, …, i and writes
  the sum to block (i, j) of the output; blocks above the diagonal are never written, and a final triangular mask zeroes
  every entry above the diagonal. The reference contracts over all 8192 indices and applies the same mask.
  The two agree because the inputs are lower triangular (the operator's contract, stated in the precondition): in the
  full contraction for an entry (r, c) the terms with index t > r vanish on A's side and those with t < c on B's side, so
  only the contraction blocks between c's block and r's block can contribute — exactly the blocks the kernel visits.
  Over the extended reals this uses only 0 · x = 0 = x · 0 and regrouping of finite sums, so finiteness is not needed.
  Above the diagonal both results are the mask's zero.
  The frames: the tables that drive the kernel's schedule are literal constants of the program, so every block index is
  in range whatever the inputs are, and each program runs to the end and leaves its arguments unchanged.
-/
import proofs.«145046_j66924180406522_1_alg».proof.Defs
import proofs.«145046_j66924180406522_1_alg».proof.Proof.Gen.Kernel
import proofs.«145046_j66924180406522_1_alg».proof.Proof.Gen.KernelIdeal
import proofs.«145046_j66924180406522_1_alg».proof.Proof.Gen.ReferenceIdeal
import proofs.«145046_j66924180406522_1_alg».proof.Proof.Gen.Pre_finite_inputs
import proofs.«145046_j66924180406522_1_alg».proof.Proof.Gen.ReferenceIdeal.Run
import proofs.«145046_j66924180406522_1_alg».proof.Proof.Gen.ReferenceIdeal.Read
import proofs.«145046_j66924180406522_1_alg».proof.Proof.K.Frame
import proofs.«145046_j66924180406522_1_alg».proof.Proof.KI.Value
import proofs.«145046_j66924180406522_1_alg».proof.Proof.RefValue
import proofs.«145046_j66924180406522_1_alg».proof.Proof.PreRead
import proofs.«145046_j66924180406522_1_alg».proof.Proof.TriSum

noncomputable section

namespace Cert.Proof

open Idealize.ShloMosaic Idealize.ShloMosaic.TcCoe Idealize.SL.Sem Idealize.ShloMosaic.ValueIdx

/-- The word-level kernel runs to the end and leaves its arguments unchanged. -/
theorem frame_k : Cert.frame_Kernel := fun m ρ _ => Cert.Kernel.Tri.frame m ρ Cert.Kernel.Tri.ok

/-- So does the idealized kernel. -/
theorem frame_ki : Cert.frame_KernelIdeal := fun m ρ _ => Cert.KernelIdeal.Tri.frame m ρ Cert.KernelIdeal.Tri.ok

/-- And the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- For lower-triangular arguments the reference's entry and the kernel's entry are one number: the full contraction is
    the banded sum of block products on and below the diagonal, and both are zero above it. -/
theorem entry_eq (X Y : FVec Ideal Cert.KernelIdeal.S8192x8192 .f32)
    (hX : ∀ r t : Fin 8192, r.val < t.val → X (ix2 r t) = (0 : EReal))
    (hY : ∀ t c : Fin 8192, t.val < c.val → Y (ix2 t c) = (0 : EReal)) (r c : Fin 8192) :
    (if c.val ≤ r.val then ∑ t : Fin 8192, X (ix2 r t) * Y (ix2 t c) else (0 : EReal))
      = if c.val ≤ r.val then Cert.KernelIdeal.Tri.bandAt X Y r c else (0 : EReal) := by
  split
  · exact Cert.Tri.sum_eq_band (fun r t => X (ix2 r t)) (fun t c => Y (ix2 t c)) hX hY r c
  · rfl

/-- The two idealized programs, run on the same lower-triangular arguments, end with equal results. -/
theorem algebraic : Cert.algebraic_KernelIdeal_ReferenceIdeal := by
  intro m ρ m' ρ' hpre hagree
  refine ⟨fun c => Cert.KernelIdeal.Tri.resultOf m Cert.KernelIdeal.Tri.ok c, Cert.KernelIdeal.Tri.value_run m ρ Cert.KernelIdeal.Tri.ok, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  obtain ⟨hX, hY⟩ := Cert.PreRead.lower_of_pre _ _ (hpre c)
  funext i
  obtain ⟨r, cc, rfl⟩ : ∃ (r cc : Fin 8192), i = ix2 r cc := ⟨i 0, i 1, eq_ix2 i⟩
  exact (Cert.ReferenceIdeal.RefValue.result_at _ _ r cc).trans
    ((entry_eq _ _ hX hY r cc).trans (Cert.KernelIdeal.Tri.resultOf_at m Cert.KernelIdeal.Tri.ok c r cc).symm)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
